-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x128 : Shape := ⟨3, ![8, 2048, 128]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S8x2048x2048 .f32) (main_arg1 : FVec F S8x2048x128 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x2048 : Shape := ⟨3, ![8, 2048, 2048]⟩
abbrev S8x2048x128 : Shape := ⟨3, ![8, 2048, 128]⟩
abbrev S8x1x1 : Shape := ⟨3, ![8, 1, 1]⟩
abbrev S1x1024x1024 : Shape := ⟨3, ![1, 1024, 1024]⟩
abbrev S1x1024x128 : Shape := ⟨3, ![1, 1024, 128]⟩
abbrev S1x1x1 : Shape := ⟨3, ![1, 1, 1]⟩
abbrev S1x1 : Shape := ⟨2, ![1, 1]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S8x2048x128, .f32⟩
  | .hbm, ⟨2, _⟩ => ⟨S8x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg1 : BitVec 32 := BitVec.ofNat 32 (i 1).val
  let c1_i32 : BitVec 32 := 1#32
  let v39 : BitVec 1 := Scalar.cmpi .eq arg1 c1_i32
  let arg2 : BitVec 32 := BitVec.ofNat 32 (i 2).val
  let c1_i32_20 : BitVec 32 := 1#32
  let v40 : BitVec 1 := Scalar.cmpi .eq arg2 c1_i32_20
  let v41 : BitVec 1 := Scalar.andi v39 v40
  let v42 : BitVec 32 := Scalar.extui v41
  let c0_i32_21 : BitVec 32 := 0#32
  let v43 : BitVec 1 := Scalar.cmpi .ne v42 c0_i32_21
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  h_S_ : 0 < S_.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x2048.size a
  hwx0_0 : ∀ i : grid0.Coords, EltTy.bits .f32 = 32 ∨ (Rect.block (s := S8x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S8x2048x128.size a
  hwx0_1 : ∀ i : grid0.Coords, EltTy.bits .f32 = 32 ∨ (Rect.block (s := S8x2048x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S8x2048x128.size a
  hwx0_2 : ∀ i : grid0.Coords, EltTy.bits .f32 = 32 ∨ (Rect.block (s := S8x2048x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x2048, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S8x2048x128_S8x2048_d2 : S8x2048x128.ReducesTo [2] S8x2048
  h_S_ : 0 < S_.numel
  bcast_S8x2048_S8x2048x1_0_1 : S8x2048.BroadcastsInDim S8x2048x1 (![0, 1] : Fin 2 → Fin S8x2048x1.rank)
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S_d0_1_2 : S8x2048x2048.ReducesTo [0, 1, 2] S_
  dot_S8x2048x128_S8x2048x128_S8x2048x2048_2_2_1_1_0_0_wf : DotDims.WF S8x2048x128 S8x2048x128 S8x2048x2048 [2] [2] [1] [1] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf

class Facts : Prop extends Facts₀ where

variable [Facts]
-- ==== Proof.Smooth.K.Setup.lean ====
/-
  What the three runs of the kernel body and the frame argument share.

  The grid has 8 · 2 · 2 = 32 points, point `t` at coordinates (b, i, j) with t = 4 b + 2 i + j. The body resets its
  one-cell accumulator where i = j = 0 (t ≡ 0 mod 4), adds the tile's partial sum at every point, and copies the
  accumulator into the output block where i = j = 1 (t ≡ 3 mod 4); the output block of graph b is written back only
  there, and is idle at the other three points of b. Stated here: @main as host lines around the region, each input
  window's block as the body finds it at a point, the two branch conditions in closed form over the grid, where the
  output window is idle, and the staging and scratch memrefs the body is called with.
-/
import proofs.«143707_j86766929314299_1_alg».proof.Proof.Gen.Kernel.Launch
import proofs.«143707_j86766929314299_1_alg».proof.Proof.Gen.Kernel.Skeleton
import proofs.«143707_j86766929314299_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The four host lines after the region allocate nothing. -/
theorem hostOps1_fresh : (hostOps1 : List (HloOp τ sig (Elt F))).Forall fun op => op.fresh = ∅ := by
  simp only [List.Forall]; repeat' constructor

/-- @main is the region continued by the four host lines (the sum over the graphs and the quotient). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The argument arrays reach the region as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The adjacency window's buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row window's buffer holds its block at every point — at a point with j = 1 it is not fetched again, and still
    holds the block of (b, i), which is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The column window's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is reset where the row-tile and column-tile coordinates are both zero. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- Those are the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The accumulator is copied out where both tile coordinates are one, the last tile of a graph. -/
abbrev cond0_1 (i : grid0.Coords) : Prop := k0_cond2 i = 1#1
/-- Those are the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the accumulator is not copied out the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is copied out the window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x1 .f32 := (Memref.whole cc0_stg3_0 : Memref sig .tc .vmem S1x1x1 .f32).view
/-- Each window's current staging memref at point `t`, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The one-cell accumulator: a whole scoped buffer of the kernel's own. -/
abbrev scM0_0 : Memref sig .tc .vmem S1x1 .f32 := Memref.whole cc0_scratch0
abbrev VS0_0 : View sig .tc .vmem S1x1 .f32 := scM0_0.view

/-- The region's scoped rest is the accumulator at some contents, beside the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Smooth

end
-- ==== Proof.Smooth.K.RunA.lean ====
/-
  The kernel body at a point that RESETS the accumulator and does not copy it out (i = j = 0): on whole staging
  memrefs holding the three input blocks, the output block's buffer at any contents (handed back untouched) and the
  accumulator at any contents, the body runs to its end, leaving the inputs as they were and the accumulator written
  by its two whole stores — the zero, then zero plus the tile's partial sum — which the run records as pieces.
-/
import proofs.«143707_j86766929314299_1_alg».proof.Proof.Smooth.K.Setup

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where the accumulator is reset and not copied out, with the pieces it leaves in the accumulator. -/
noncomputable def kernelRun0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨[], ?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Smooth

end
-- ==== Proof.Smooth.K.RunB.lean ====
/-
  The kernel body at a point that neither resets the accumulator nor copies it out (exactly one of i, j is 1): the
  accumulator comes in at what the point before left and goes out written by one whole store, that value plus the
  tile's partial sum; the output block's buffer is handed back untouched.
-/
import proofs.«143707_j86766929314299_1_alg».proof.Proof.Smooth.K.RunA

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where the accumulator is neither reset nor copied out, with the piece it leaves in the accumulator. -/
noncomputable def kernelRun0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨[], ?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Smooth

end
-- ==== Proof.Smooth.K.RunC.lean ====
/-
  The kernel body at a point that copies the accumulator out (i = j = 1, the last tile of a graph): the accumulator
  comes in at what the point before left, is written by one whole store (that value plus the tile's partial sum), and
  the output block's buffer, at any contents before, is written whole with the accumulator's new contents.
-/
import proofs.«143707_j86766929314299_1_alg».proof.Proof.Smooth.K.RunB

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where the accumulator is copied out, with the pieces it leaves in the output block and the accumulator. -/
noncomputable def kernelRun0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, ?_, fun E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Smooth

end
-- ==== Proof.Smooth.K.Frame.lean ====
/-
  What the accumulator and the output block hold point by point, and the proof data of the pipeline.

  Each case's run leaves its stores as pieces; read back, they are what the accumulator (`sout0_A`, `sout0_B`,
  `sout0_C`) and, where it is copied out, the output block (`out0_C`) hold after the body. `accAt n` is the
  accumulator after point `n`, by recursion on the point: the reset case starts afresh, the other two continue from
  what the point before left. `outAt t` is the output block's buffer after a point that copies the accumulator out.
  The proof data hold each input window at its block, the output window at `outAt`, and as the invariant the
  accumulator at `accAt` of the point before (at anything before the first point). The row and the column window read
  ONE array, the embeddings: each holds half of it.
-/
import proofs.«143707_j86766929314299_1_alg».proof.Proof.Smooth.K.RunC

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) (y : S1x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1x1.size (by sl_kernel_rfl) y

/-- The accumulator after a point that resets it. -/
def sout0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) : Vec F S1x1 .f32 :=
  VS0_0.read (Elt F) (VS0_0.writes (Elt F) VS0_0.junk (kernelRun0_A c i arg3 harg3 arg4 harg4 arg5 harg5 arg6 harg6 arg7 harg7 hc0 hc1 x0 x1 x2).2.1)

theorem scover0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) (y : S1x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1x1.size (by sl_kernel_rfl) y

/-- The accumulator after a point that neither resets it nor copies it out, from what the point before left. -/
def sout0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 hc0 hc1 x0 x1 x2 xs0).2.1)

theorem scover0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) (y : S1x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1x1.size (by sl_kernel_rfl) y

/-- The accumulator after a point that copies it out, from what the point before left. -/
def sout0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 hc0 hc1 x0 x1 x2 xs0).2.1)

theorem cover0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) (y : S1x1x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x1x1.size (by sl_kernel_rfl) y

/-- The output block's buffer after a point that copies the accumulator out. -/
def out0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) : Vec F S1x1x1 .f32 :=
  VO0_3.read (Elt F) (VO0_3.writes (Elt F) VO0_3.junk (kernelRun0_C c i arg3 harg3 arg4 harg4 arg5 harg5 arg6 harg6 arg7 harg7 hc0 hc1 x0 x1 x2 xs0).1)

/-! ## Point by point -/

theorem N32 : cfg0.N = 32 := N_0

/-- THE ACCUMULATOR after the body at position `n`: afresh where the point resets it, else from what the point
    before left. -/
def accAt (c : Dev nD) : (n : ℕ) → n < cfg0.N → Vec F S1x1 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩)
    else if h1 : (n + 1) % 4 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (accAt c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (accAt c n (Nat.lt_of_succ_lt hn))

theorem accAt_A (c : Dev nD) (t : Fin cfg0.N) (h0 : t.val % 4 = 0) (h1 : ¬t.val % 4 = 3) :
    accAt m c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) := by
  obtain ⟨n, hn⟩ := t
  cases n with
  | zero => exact rfl
  | succ n => exact (dif_pos h0).trans rfl

theorem accAt_B (c : Dev nD) (t : Fin cfg0.N) (h0 : ¬t.val % 4 = 0) (h1 : ¬t.val % 4 = 3) :
    accAt m c t.val t.isLt = sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 4 = 0) (h1 : t.val % 4 = 3) :
    accAt m c t.val t.isLt = sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- THE OUTPUT BLOCK's buffer after the body at a point that copies the accumulator out; where it does not, contents
    nothing reads (the window is idle there and not written back). -/
def outAt (c : Dev nD) (t : Fin cfg0.N) : Vec F S1x1x1 .f32 :=
  if h1 : t.val % 4 = 3 then
    out0_C c (grid0.coords t) (ms0_0 t) (hs0_0 t) (ms0_1 t) (hs0_1 t) (ms0_2 t) (hs0_2 t) (ms0_3 t) (hs0_3 t) scM0_0 (Memref.isWhole_whole _) (fun h => (fun h => by omega) ((hcond0_0 t).mp h)) ((hcond0_1 t).mpr h1) (iblk m c 0 t) (iblk m c 1 t) (iblk m c 2 t) (accAt m c (t.val - 1) (Nat.lt_of_le_of_lt (Nat.sub_le _ _) t.isLt))
  else VO0_3.read (Elt F) VO0_3.junk

theorem outAt_C (c : Dev nD) (t : Fin cfg0.N) (h0 : ¬t.val % 4 = 0) (h1 : t.val % 4 = 3) :
    outAt m c t = out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt)) := by
  unfold outAt; exact (dif_pos h1).trans rfl

/-- The region invariant before position `n`: the accumulator at anything before the first point, afterwards at what
    the point before left. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare (accAt m c n hn)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare (accAt m c n hn) := rfl

theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The pipeline's proof data -/

/-- The proof data on core `c`: the arrays as the region finds them; after the body each input's buffer at its
    block and the output's at `outAt`; the invariant `PhiS`; nothing owed; the adjacency held whole, the embeddings
    half by the row window and half by the column window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The shares: the adjacency and the result whole, the embeddings in two halves. -/
theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl

/-- The scoped rest the launch hands the region is the invariant before the first point, -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_eq]
  simp only [scM0_0, owns_whole]; exact Idealize.SL.BI.Entails.refl _

/-- and the invariant after the last point gives it back, the accumulator's contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_eq]
  simp only [scM0_0, owns_whole]
  iintro H; iexists _; iexact H

end Cert.Kernel.Smooth

end
-- ==== Proof.Smooth.K.Body.lean ====
/-
  The body obligation of the pipeline: at every point, from the invariant and the windows' buffers as the proof data
  say the body finds them, the kernel body runs to what the proof data say it leaves. By cases on the point's residue
  mod 4 — the reset case, the two middle cases, the copy-out case — each the run of that case.
-/
import proofs.«143707_j86766929314299_1_alg».proof.Proof.Smooth.K.Frame

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the residue of the point mod 4 says which case it is;
    that case's run applies, the invariant handing it the accumulator at what the point before left (at anything at
    the first point) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · have h1 : ¬t.val % 4 = 3 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [Dat.leavesExact_idle (dats m 0 c) 3 t (idleAt0_3 t (fun h => h1 ((hcond0_1 t).mp h))) (noFlush0_3 t (fun h => h1 ((hcond0_1 t).mp h)))]
    rw [accAt_A m c t h0 h1]
    unfold sout0_A; (try dsimp only)
    by_cases hz : t.val = 0
    · rw [PhiS_castSucc m c t, PhiS_zero m c _ _ hz]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_A c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0]
      · unfold owns; iexists _; isplitr
        swap; · iexact HS0
        ipureintro; exact View.read_writes_of_cover _ _ _ _ _ (scover0_A c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [accAt_C m c t h0 h1, outAt_C m c t h0 h1]
      unfold out0_C sout0_C; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0]
      · unfold owns; iexists _; isplitr
        swap; · iexact HS0
        ipureintro; exact View.read_writes_of_cover _ _ _ _ _ (scover0_C c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [accAt_B m c t h0 h1]
      unfold sout0_B; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_B c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Smooth

end
-- ==== Proof.Smooth.K.Launch.lean ====
/-
  The launch: from any memory with zero counters, every weakly fair execution of @main — the kernel region, then the
  four host lines that sum the per-graph results and divide by the number of (graph, node) pairs — terminates, the
  result holding the host lines' value of the result array as the pipeline leaves it, both argument arrays unchanged.
  The row window and the column window read the same array: its points-to is split in two halves at the region's
  entry, one per window, and each half is read against the memory after the run (an input array is never written, so
  both halves still hold what was launched).
-/
import proofs.«143707_j86766929314299_1_alg».proof.Proof.Smooth.K.Frame
import Idealize.ShloMosaic.Lib.Pipeline.Launch
import Idealize.ShloMosaic.Lib.Pipeline.Kit
import Idealize.ShloMosaic.Lib.Pipeline.FrameSuffix
import Idealize.ShloMosaic.Lib.StableHlo.Run

set_option maxRecDepth 16384

noncomputable section

namespace Cert.Kernel.Smooth

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four host lines after the region compute of the result array `x` (one cell per graph): its sum, from the
    zero literal, divided by the literal 16384. -/
abbrev tailVal (x : Vec F S8x1x1 .f32) : Vec F S_ .f32 :=
  Host.divf (Host.reduceAdd x (constant S_ .f32 0x00000000#32) reducesTo_S8x1x1_S_d0_1_2 h_S_) (constant S_ .f32 0x46800000#32)

/-! ## The arrays at the region's entry: one buffer behind two windows -/

theorem arrImage : (Finset.univ.image (Pipeline.arrRef spec0) : Finset (Ref sig .tc)) = [main_arg0, main_arg1, main_v0].toFinset := by decide

theorem arrAt0_0 (c : Dev nD) : (dats m 0 c).arrAt 0 0 = V m c main_arg0 := A_eq m c 0
theorem arrAt1_0 (c : Dev nD) : (dats m 0 c).arrAt 1 0 = V m c main_arg1 := A_eq m c 1
theorem arrAt2_0 (c : Dev nD) : (dats m 0 c).arrAt 2 0 = V m c main_arg1 := A_eq m c 2
theorem arrAt3_0 (c : Dev nD) : (dats m 0 c).arrAt 3 0 = V m c main_v0 := A_eq m c 3

/-- The three distinct buffers behind the four windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact Idealize.SL.BI.bigSep_eq_bigSepL_of_eq [main_arg0, main_arg1, main_v0] arrImage (by decide) _

/-- The pipeline's arrays window by window: the adjacency and the result whole, the embeddings as two halves. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_v0) ↦{fullShare} G 3)) := by
  unfold Dat.arrays
  rw [bigSep_W0, share0, share1, share2, share3]
  simp only [View.set_whole]

theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq, arrAt0_0, arrAt1_0, arrAt2_0, arrAt3_0]
  iintro ⟨H0, H1, H3⟩
  ihave H1 := (pointsTo_share (PosShare.mem_left_op_right fullShare)).1 $$ H1
  icases H1 with ⟨H1, H2⟩
  isplitl [H0]; · iexact H0
  isplitl [H1]; · iexact H1
  isplitl [H2]; · iexact H2
  iexact H3

/-! ## The host lines after the region -/

/-- The buffers the host lines touch: the result array and the four buffers that bypass the region. -/
abbrev tailL : List (Ref sig .tc) := [main_v0, main_cst, main_v1, main_cst_0, main_v2]
abbrev tailS : Finset (DevRef τ sig) := (tailL.toFinset).map ⟨Proc.devRef (sig := sig) (.tc : Proc τ), Proc.devRef_injective _⟩

theorem mem_tailS {r : Ref sig .tc} (h : r ∈ tailL) : Proc.devRef (τ := τ) .tc r ∈ tailS :=
  Finset.mem_map_of_mem _ (List.mem_toFinset.mpr h)

theorem held_tailS (c : Dev nD) (W : Valuation τ sig (Elt F)) :
    (StableHlo.held (c : Thread nD τ) tailS W : sProp 𝕄)
      = iprop((((c : Thread nD τ).loc main_v0) ↦{fullShare} W (Proc.devRef .tc main_v0))
          ∗ (((c : Thread nD τ).loc main_cst) ↦{fullShare} W (Proc.devRef .tc main_cst))
          ∗ (((c : Thread nD τ).loc main_v1) ↦{fullShare} W (Proc.devRef .tc main_v1))
          ∗ (((c : Thread nD τ).loc main_cst_0) ↦{fullShare} W (Proc.devRef .tc main_cst_0))
          ∗ (((c : Thread nD τ).loc main_v2) ↦{fullShare} W (Proc.devRef .tc main_v2))) := by
  unfold StableHlo.held
  rw [bigSep_map]
  exact Idealize.SL.BI.bigSep_eq_bigSepL tailL (by decide) _

theorem hostOps1_tailS : ∀ ops ∈ [(hostOps1 : List (HloOp τ sig (Elt F)))], ∀ op ∈ ops, op.bufs ⊆ tailS := by
  intro ops hops
  rw [List.mem_singleton] at hops; subst hops
  refine List.forall_iff_forall_mem.mp ⟨?_, ?_, ?_, ?_⟩
  · exact Finset.singleton_subset_iff.mpr (mem_tailS (by decide))
  · exact Finset.insert_subset (mem_tailS (by decide)) (Finset.insert_subset (mem_tailS (by decide)) (Finset.singleton_subset_iff.mpr (mem_tailS (by decide))))
  · exact Finset.singleton_subset_iff.mpr (mem_tailS (by decide))
  · exact Finset.insert_subset (mem_tailS (by decide)) (Finset.insert_subset (mem_tailS (by decide)) (Finset.singleton_subset_iff.mpr (mem_tailS (by decide))))

theorem hostOps1_fresh' : ∀ ops ∈ [(hostOps1 : List (HloOp τ sig (Elt F)))], ∀ op ∈ ops, op.fresh = ∅ := by
  intro ops hops
  rw [List.mem_singleton] at hops; subst hops
  exact List.forall_iff_forall_mem.mp hostOps1_fresh

/-- Core `c`'s contents where the host lines begin: the result array at `x`, every other buffer as the region found it. -/
def Wexit (c : Dev nD) (x : Vec F S8x1x1 .f32) : Valuation τ sig (Elt F) :=
  Function.update (V0 m c) (Proc.devRef .tc main_v0) x

theorem Wexit_v0 (c : Dev nD) (x : Vec F S8x1x1 .f32) : Wexit m c x (Proc.devRef .tc main_v0) = x := by
  unfold Wexit; exact Function.update_self _ _ _

theorem Wexit_of_ne (c : Dev nD) (x : Vec F S8x1x1 .f32) {r : Ref sig .tc} (h : r ≠ main_v0) :
    Wexit m c x (Proc.devRef .tc r) = V m c r := by
  unfold Wexit; exact Function.update_of_ne (StableHlo.devRef_ne_of_ne h) _ _

/-- The host lines leave the result array as it was and the quotient at their value of it. -/
theorem after_v0 (c : Dev nD) (x : Vec F S8x1x1 .f32) :
    StableHlo.after (hostOps1 : List (HloOp τ sig (Elt F))) (Wexit m c x) (Proc.devRef .tc main_v0) = x := by
  after_results
  exact Wexit_v0 m c x

theorem after_v2 (c : Dev nD) (x : Vec F S8x1x1 .f32) :
    StableHlo.after (hostOps1 : List (HloOp τ sig (Elt F))) (Wexit m c x) (Proc.devRef .tc main_v2) = tailVal x := by
  after_results
  rw [Wexit_v0]

/-- What the host lines hand back beside the arrays: the quotient's buffer at their value of the result array. -/
abbrev Zt (c : Dev nD) : sProp 𝕄 :=
  iprop(((c : Thread nD τ).loc main_v2) ↦{fullShare} tailVal ((dats m 0 c).arrAt 3 cfg0.N))

set_option backward.isDefEq.respectTransparency.types false in
/-- THE HOST LINES from the region's exit: they read the result array, held whole among the pipeline's arrays, and
    write the four buffers that bypassed the region; the arrays come back as they were, the quotient at `tailVal`. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [arrays0_eq, unscopedRest0_eq]
  have key := Pipeline.wp_seqs_then (Ix := Unit) (Name := ℕ) (U := UR sig nD τ) (Lvl := ℕ) (fun q => (cfgs q).toPCfg (Val := Elt F)) defs₀ Variants.none c tailS [] (K := Q')
    [(hostOps1 : List (HloOp τ sig (Elt F)))] hostOps1_tailS hostOps1_fresh' (Wexit m c ((dats m 0 c).arrAt 3 cfg0.N))
  rw [held_tailS, held_tailS] at key
  simp only [List.flatten_cons, List.flatten_nil, List.append_nil, List.map_cons, List.map_nil] at key
  rw [after_v0, after_v2, Wexit_v0, Wexit_of_ne m c _ (r := main_cst) (by decide), Wexit_of_ne m c _ (r := main_v1) (by decide),
    Wexit_of_ne m c _ (r := main_cst_0) (by decide), Wexit_of_ne m c _ (r := main_v2) (by decide)] at key
  iintro ⟨Hk, Hb, ⟨H0, H1, H2, H3⟩, Hc, Hv1, Hc0, Hv2⟩
  iapply key $$ [Hb H3 Hc Hv1 Hc0 Hv2]
  · isplitl [Hb]; · iexact Hb
    isplitl [H3]; · iexact H3
    isplitl [Hc]; · iexact Hc
    isplitl [Hv1]; · iexact Hv1
    isplitl [Hc0]; · iexact Hc0
    iexact Hv2
  iintro ⟨-, H3, -, -, -, Hv2⟩
  rw [Pipeline.chain_nil, wp_pure]
  imodintro
  iapply Hk
  isplitl [H0 H1 H2 H3]
  · isplitl [H0]; · iexact H0
    isplitl [H1]; · iexact H1
    isplitl [H2]; · iexact H2
    iexact H3
  · iexact Hv2

/-! ## Reading the final memory -/

/-- The quotient's buffer, held whole, read against the memory. -/
theorem hY (c : Dev nD) (s' : Phys nD τ sig (Elt F)) :
    iprop((BI.emp : sProp 𝕄) ∗ Zt m c ∗ SI s')
      ⊢ |={Set.univ}=> iprop(⌜s'.mem.mem ((c : Thread nD τ).loc main_v2) = tailVal ((dats m 0 c).arrAt 3 cfg0.N)⌝ ∗ SI s') := by
  iintro ⟨-, H, HSI⟩
  icombine HSI H gives %h
  imodintro
  isplitr
  · ipureintro; exact Buf.eq_of_forall_mem_univ h
  · iexact HSI

/-- An input array is never written: after the last point it holds what was launched. -/
theorem arrAtN_0 (c : Dev nD) : (dats m 0 c).arrAt 0 cfg0.N = m ((c : Thread nD τ).loc main_arg0) :=
  ((dats m 0 c).arrAt_in 0 rfl cfg0.N).trans ((A_eq m c 0).trans (V_main_arg0 m c))
theorem arrAtN_1 (c : Dev nD) : (dats m 0 c).arrAt 1 cfg0.N = m ((c : Thread nD τ).loc main_arg1) :=
  ((dats m 0 c).arrAt_in 1 rfl cfg0.N).trans ((A_eq m c 1).trans (V_main_arg1 m c))

/-! ## The run -/

set_option backward.isDefEq.respectTransparency.types false in
/-- THE RUN, given the body obligation. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v2) = tailVal ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (hbody c).loose) (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m) (hpf := fun _ k => k.elim0)
    (X := fun _ => BI.emp) (Y := fun _ => BI.emp)
    (Z := fun c => Pipeline.unscopedRest (Ix := Unit) (Name := ℕ) (U := UR sig nD τ) (Lvl := ℕ) spec0 c (V m c))
    (Z' := Zt m)
    (hX := fun c => by
      rw [Pipeline.unscopedRestP_none]
      iintro H
      isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, HR⟩; iexact HR).trans (hin m c))
    (hout := fun c => (hout m c).trans (by
      iintro H
      isplitr; · iempintro
      iexact H))
    (htail := htail m)
    (QY := fun c s => s.mem ((c.tc : Thread nD τ).loc main_v2) = tailVal ((dats m 0 c).arrAt 3 cfg0.N))
    (hY := hY m)
    (hQ := fun s h c => ⟨(h c).2.2, ((h c).1 0).trans (arrAtN_0 m c), ((h c).1 1).trans (arrAtN_1 m c)⟩)

end Cert.Kernel.Smooth

end
-- ==== Proof.Smooth.KI.Setup.lean ====
/-
  What the three runs of the kernel body and the frame argument share.

  The grid has 8 · 2 · 2 = 32 points, point `t` at coordinates (b, i, j) with t = 4 b + 2 i + j. The body resets its
  one-cell accumulator where i = j = 0 (t ≡ 0 mod 4), adds the tile's partial sum at every point, and copies the
  accumulator into the output block where i = j = 1 (t ≡ 3 mod 4); the output block of graph b is written back only
  there, and is idle at the other three points of b. Stated here: @main as host lines around the region, each input
  window's block as the body finds it at a point, the two branch conditions in closed form over the grid, where the
  output window is idle, and the staging and scratch memrefs the body is called with.
-/
import proofs.«143707_j86766929314299_1_alg».proof.Proof.Gen.KernelIdeal.Launch
import proofs.«143707_j86766929314299_1_alg».proof.Proof.Gen.KernelIdeal.Skeleton
import proofs.«143707_j86766929314299_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line runs before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The four host lines after the region allocate nothing. -/
theorem hostOps1_fresh : (hostOps1 : List (HloOp τ sig (Elt F))).Forall fun op => op.fresh = ∅ := by
  simp only [List.Forall]; repeat' constructor

/-- @main is the region continued by the four host lines (the sum over the graphs and the quotient). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The argument arrays reach the region as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The adjacency window's buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The row window's buffer holds its block at every point — at a point with j = 1 it is not fetched again, and still
    holds the block of (b, i), which is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The column window's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is reset where the row-tile and column-tile coordinates are both zero. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- Those are the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The accumulator is copied out where both tile coordinates are one, the last tile of a graph. -/
abbrev cond0_1 (i : grid0.Coords) : Prop := k0_cond2 i = 1#1
/-- Those are the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the accumulator is not copied out the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is copied out the window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S1x1x1 .f32 := (Memref.whole cc0_stg3_0 : Memref sig .tc .vmem S1x1x1 .f32).view
/-- Each window's current staging memref at point `t`, and its wholeness. -/
abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The one-cell accumulator: a whole scoped buffer of the kernel's own. -/
abbrev scM0_0 : Memref sig .tc .vmem S1x1 .f32 := Memref.whole cc0_scratch0
abbrev VS0_0 : View sig .tc .vmem S1x1 .f32 := scM0_0.view

/-- The region's scoped rest is the accumulator at some contents, beside the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Smooth

end
-- ==== Proof.Smooth.KI.RunA.lean ====
/-
  The kernel body at a point that RESETS the accumulator and does not copy it out (i = j = 0): on whole staging
  memrefs holding the three input blocks, the output block's buffer at any contents (handed back untouched) and the
  accumulator at any contents, the body runs to its end, leaving the inputs as they were and the accumulator written
  by its two whole stores — the zero, then zero plus the tile's partial sum — which the run records as pieces.
-/
import proofs.«143707_j86766929314299_1_alg».proof.Proof.Smooth.KI.Setup

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where the accumulator is reset and not copied out, with the pieces it leaves in the accumulator. -/
noncomputable def kernelRun0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨[], ?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Smooth

end
-- ==== Proof.Smooth.KI.RunB.lean ====
/-
  The kernel body at a point that neither resets the accumulator nor copies it out (exactly one of i, j is 1): the
  accumulator comes in at what the point before left and goes out written by one whole store, that value plus the
  tile's partial sum; the output block's buffer is handed back untouched.
-/
import proofs.«143707_j86766929314299_1_alg».proof.Proof.Smooth.KI.RunA

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where the accumulator is neither reset nor copied out, with the piece it leaves in the accumulator. -/
noncomputable def kernelRun0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) :
    Σ' (L3 : List (View.Piece (Elt F) S1x1x1 .f32)), { LS0 : List (View.Piece (Elt F) S1x1 .f32) //
      ∀ (xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨[], ?_, fun xi3 E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Smooth

end
-- ==== Proof.Smooth.KI.RunC.lean ====
/-
  The kernel body at a point that copies the accumulator out (i = j = 1, the last tile of a graph): the accumulator
  comes in at what the point before left, is written by one whole store (that value plus the tile's partial sum), and
  the output block's buffer, at any contents before, is written whole with the accumulator's new contents.
-/
import proofs.«143707_j86766929314299_1_alg».proof.Proof.Smooth.KI.RunB

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's run where the accumulator is copied out, with the pieces it leaves in the output block and the accumulator. -/
noncomputable def kernelRun0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) :
    Σ' (L3 : List (View.Piece (Elt F) S1x1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__smoothness_kernel i arg3 harg3 arg4 harg4 arg5 harg5 arg6 harg6 arg7 harg7) K } := by
  refine ⟨?_, ?_, fun E K => ?run⟩
  case run =>
    simp only [cc0__smoothness_kernel_eq_skeleton]; unfold cc0__smoothness_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Smooth

end
-- ==== Proof.Smooth.KI.Frame.lean ====
/-
  What the accumulator and the output block hold point by point, and the proof data of the pipeline.

  Each case's run leaves its stores as pieces; read back, they are what the accumulator (`sout0_A`, `sout0_B`,
  `sout0_C`) and, where it is copied out, the output block (`out0_C`) hold after the body. `accAt n` is the
  accumulator after point `n`, by recursion on the point: the reset case starts afresh, the other two continue from
  what the point before left. `outAt t` is the output block's buffer after a point that copies the accumulator out.
  The proof data hold each input window at its block, the output window at `outAt`, and as the invariant the
  accumulator at `accAt` of the point before (at anything before the first point). The row and the column window read
  ONE array, the embeddings: each holds half of it.
-/
import proofs.«143707_j86766929314299_1_alg».proof.Proof.Smooth.KI.RunC

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) (y : S1x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1x1.size (by sl_kernel_rfl) y

/-- The accumulator after a point that resets it. -/
def sout0_A (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1x1024x1024 .f32) (x1 : Vec F S1x1024x128 .f32) (x2 : Vec F S1x1024x128 .f32) : Vec F S1x1 .f32 :=
  VS0_0.read (Elt F) (VS0_0.writes (Elt F) VS0_0.junk (kernelRun0_A c i arg3 harg3 arg4 harg4 arg5 harg5 arg6 harg6 arg7 harg7 hc0 hc1 x0 x1 x2).2.1)

theorem scover0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) (y : S1x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1x1.size (by sl_kernel_rfl) y

/-- The accumulator after a point that neither resets it nor copies it out, from what the point before left. -/
def sout0_B (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 hc0 hc1 x0 x1 x2 xs0).2.1)

theorem scover0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) (y : S1x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1x1.size (by sl_kernel_rfl) y

/-- The accumulator after a point that copies it out, from what the point before left. -/
def sout0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 hc0 hc1 x0 x1 x2 xs0).2.1)

theorem cover0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) (y : S1x1x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x1x1.size (by sl_kernel_rfl) y

/-- The output block's buffer after a point that copies the accumulator out. -/
def out0_C (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1x1024x1024 .f32) (x1 : Vec F S1x1024x128 .f32) (x2 : Vec F S1x1024x128 .f32) (xs0 : Vec F S1x1 .f32) : Vec F S1x1x1 .f32 :=
  VO0_3.read (Elt F) (VO0_3.writes (Elt F) VO0_3.junk (kernelRun0_C c i arg3 harg3 arg4 harg4 arg5 harg5 arg6 harg6 arg7 harg7 hc0 hc1 x0 x1 x2 xs0).1)

/-! ## Point by point -/

theorem N32 : cfg0.N = 32 := N_0

/-- THE ACCUMULATOR after the body at position `n`: afresh where the point resets it, else from what the point
    before left. -/
def accAt (c : Dev nD) : (n : ℕ) → n < cfg0.N → Vec F S1x1 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩)
  | n + 1, hn =>
    if h0 : (n + 1) % 4 = 0 then
      sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩)
    else if h1 : (n + 1) % 4 = 3 then
      sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (accAt c n (Nat.lt_of_succ_lt hn))
    else
      sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (accAt c n (Nat.lt_of_succ_lt hn))

theorem accAt_A (c : Dev nD) (t : Fin cfg0.N) (h0 : t.val % 4 = 0) (h1 : ¬t.val % 4 = 3) :
    accAt m c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t) := by
  obtain ⟨n, hn⟩ := t
  cases n with
  | zero => exact rfl
  | succ n => exact (dif_pos h0).trans rfl

theorem accAt_B (c : Dev nD) (t : Fin cfg0.N) (h0 : ¬t.val % 4 = 0) (h1 : ¬t.val % 4 = 3) :
    accAt m c t.val t.isLt = sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 4 = 0) (h1 : t.val % 4 = 3) :
    accAt m c t.val t.isLt = sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- THE OUTPUT BLOCK's buffer after the body at a point that copies the accumulator out; where it does not, contents
    nothing reads (the window is idle there and not written back). -/
def outAt (c : Dev nD) (t : Fin cfg0.N) : Vec F S1x1x1 .f32 :=
  if h1 : t.val % 4 = 3 then
    out0_C c (grid0.coords t) (ms0_0 t) (hs0_0 t) (ms0_1 t) (hs0_1 t) (ms0_2 t) (hs0_2 t) (ms0_3 t) (hs0_3 t) scM0_0 (Memref.isWhole_whole _) (fun h => (fun h => by omega) ((hcond0_0 t).mp h)) ((hcond0_1 t).mpr h1) (iblk m c 0 t) (iblk m c 1 t) (iblk m c 2 t) (accAt m c (t.val - 1) (Nat.lt_of_le_of_lt (Nat.sub_le _ _) t.isLt))
  else VO0_3.read (Elt F) VO0_3.junk

theorem outAt_C (c : Dev nD) (t : Fin cfg0.N) (h0 : ¬t.val % 4 = 0) (h1 : t.val % 4 = 3) :
    outAt m c t = out0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt)) := by
  unfold outAt; exact (dif_pos h1).trans rfl

/-- The region invariant before position `n`: the accumulator at anything before the first point, afterwards at what
    the point before left. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare (accAt m c n hn)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare (accAt m c n hn) := rfl

theorem PhiS_pos (c : Dev nD) (n : ℕ) (h : n ≤ cfg0.N) (hz : n ≠ 0) :
    PhiS m c n h = owns (c : Thread nD τ) scM0_0 fullShare (accAt m c (n - 1) (by omega)) := by
  cases n with
  | zero => exact absurd rfl hz
  | succ n => rfl

/-! ## The pipeline's proof data -/

/-- The proof data on core `c`: the arrays as the region finds them; after the body each input's buffer at its
    block and the output's at `outAt`; the invariant `PhiS`; nothing owed; the adjacency held whole, the embeddings
    half by the row window and half by the column window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The shares: the adjacency and the result whole, the embeddings in two halves. -/
theorem share0 (c : Dev nD) : (dats m 0 c).share 0 = fullShare := rfl
theorem share1 (c : Dev nD) : (dats m 0 c).share 1 = fullShare.left := rfl
theorem share2 (c : Dev nD) : (dats m 0 c).share 2 = fullShare.right := rfl
theorem share3 (c : Dev nD) : (dats m 0 c).share 3 = fullShare := rfl

/-- The scoped rest the launch hands the region is the invariant before the first point, -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl, scopedRest0_eq]
  simp only [scM0_0, owns_whole]; exact Idealize.SL.BI.Entails.refl _

/-- and the invariant after the last point gives it back, the accumulator's contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest0_eq]
  simp only [scM0_0, owns_whole]
  iintro H; iexists _; iexact H

end Cert.KernelIdeal.Smooth

end
-- ==== Proof.Smooth.KI.Body.lean ====
/-
  The body obligation of the pipeline: at every point, from the invariant and the windows' buffers as the proof data
  say the body finds them, the kernel body runs to what the proof data say it leaves. By cases on the point's residue
  mod 4 — the reset case, the two middle cases, the copy-out case — each the run of that case.
-/
import proofs.«143707_j86766929314299_1_alg».proof.Proof.Smooth.KI.Frame

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the residue of the point mod 4 says which case it is;
    that case's run applies, the invariant handing it the accumulator at what the point before left (at anything at
    the first point) and taking it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · have h1 : ¬t.val % 4 = 3 := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [Dat.leavesExact_idle (dats m 0 c) 3 t (idleAt0_3 t (fun h => h1 ((hcond0_1 t).mp h))) (noFlush0_3 t (fun h => h1 ((hcond0_1 t).mp h)))]
    rw [accAt_A m c t h0 h1]
    unfold sout0_A; (try dsimp only)
    by_cases hz : t.val = 0
    · rw [PhiS_castSucc m c t, PhiS_zero m c _ _ hz]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_A c _ _ _ _ _ _ _ _ _ _ _ _ _ _ _ _)
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨HS0, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0]
      · unfold owns; iexists _; isplitr
        swap; · iexact HS0
        ipureintro; exact View.read_writes_of_cover _ _ _ _ _ (scover0_A c _ _ _ _ _ _ _ _ _ _ _ _ _ _ _ _)
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [accAt_C m c t h0 h1, outAt_C m c t h0 h1]
      unfold out0_C sout0_C; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0]
      · unfold owns; iexists _; isplitr
        swap; · iexact HS0
        ipureintro; exact View.read_writes_of_cover _ _ _ _ _ (scover0_C c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [accAt_B m c t h0 h1]
      unfold sout0_B; (try dsimp only)
      rw [PhiS_castSucc m c t, PhiS_pos m c _ _ hz]
      iintro ⟨HS0, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0]
      · unfold owns; iexists _; isplitr
        swap; · iexact HS0
        ipureintro; exact View.read_writes_of_cover _ _ _ _ _ (scover0_B c _ _ _ _ _ _ _ _ _ _ _ _ _ _ _ _ _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Smooth

end
-- ==== Proof.Smooth.KI.Launch.lean ====
/-
  The launch: from any memory with zero counters, every weakly fair execution of @main — the kernel region, then the
  four host lines that sum the per-graph results and divide by the number of (graph, node) pairs — terminates, the
  result holding the host lines' value of the result array as the pipeline leaves it, both argument arrays unchanged.
  The row window and the column window read the same array: its points-to is split in two halves at the region's
  entry, one per window, and each half is read against the memory after the run (an input array is never written, so
  both halves still hold what was launched).
-/
import proofs.«143707_j86766929314299_1_alg».proof.Proof.Smooth.KI.Frame
import Idealize.ShloMosaic.Lib.Pipeline.Launch
import Idealize.ShloMosaic.Lib.Pipeline.Kit
import Idealize.ShloMosaic.Lib.Pipeline.FrameSuffix
import Idealize.ShloMosaic.Lib.StableHlo.Run

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the four host lines after the region compute of the result array `x` (one cell per graph): its sum, from the
    zero literal, divided by the literal 16384. -/
abbrev tailVal (x : Vec F S8x1x1 .f32) : Vec F S_ .f32 :=
  Host.divf (Host.reduceAdd x (constant S_ .f32 0x00000000#32) reducesTo_S8x1x1_S_d0_1_2 h_S_) (constant S_ .f32 0x46800000#32)

/-! ## The arrays at the region's entry: one buffer behind two windows -/

theorem arrImage : (Finset.univ.image (Pipeline.arrRef spec0) : Finset (Ref sig .tc)) = [main_arg0, main_arg1, main_v0].toFinset := by decide

theorem arrAt0_0 (c : Dev nD) : (dats m 0 c).arrAt 0 0 = V m c main_arg0 := A_eq m c 0
theorem arrAt1_0 (c : Dev nD) : (dats m 0 c).arrAt 1 0 = V m c main_arg1 := A_eq m c 1
theorem arrAt2_0 (c : Dev nD) : (dats m 0 c).arrAt 2 0 = V m c main_arg1 := A_eq m c 2
theorem arrAt3_0 (c : Dev nD) : (dats m 0 c).arrAt 3 0 = V m c main_v0 := A_eq m c 3

/-- The three distinct buffers behind the four windows, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_v0) ↦{fullShare} W main_v0)) := by
  unfold Pipeline.arrBufs
  exact Idealize.SL.BI.bigSep_eq_bigSepL_of_eq [main_arg0, main_arg1, main_v0] arrImage (by decide) _

/-- The pipeline's arrays window by window: the adjacency and the result whole, the embeddings as two halves. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_v0) ↦{fullShare} G 3)) := by
  unfold Dat.arrays
  rw [bigSep_W0, share0, share1, share2, share3]
  simp only [View.set_whole]

theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq, arrAt0_0, arrAt1_0, arrAt2_0, arrAt3_0]
  iintro ⟨H0, H1, H3⟩
  ihave H1 := (pointsTo_share (PosShare.mem_left_op_right fullShare)).1 $$ H1
  icases H1 with ⟨H1, H2⟩
  isplitl [H0]; · iexact H0
  isplitl [H1]; · iexact H1
  isplitl [H2]; · iexact H2
  iexact H3

/-! ## The host lines after the region -/

/-- The buffers the host lines touch: the result array and the four buffers that bypass the region. -/
abbrev tailL : List (Ref sig .tc) := [main_v0, main_cst, main_v1, main_cst_0, main_v2]
abbrev tailS : Finset (DevRef τ sig) := (tailL.toFinset).map ⟨Proc.devRef (sig := sig) (.tc : Proc τ), Proc.devRef_injective _⟩

theorem mem_tailS {r : Ref sig .tc} (h : r ∈ tailL) : Proc.devRef (τ := τ) .tc r ∈ tailS :=
  Finset.mem_map_of_mem _ (List.mem_toFinset.mpr h)

theorem held_tailS (c : Dev nD) (W : Valuation τ sig (Elt F)) :
    (StableHlo.held (c : Thread nD τ) tailS W : sProp 𝕄)
      = iprop((((c : Thread nD τ).loc main_v0) ↦{fullShare} W (Proc.devRef .tc main_v0))
          ∗ (((c : Thread nD τ).loc main_cst) ↦{fullShare} W (Proc.devRef .tc main_cst))
          ∗ (((c : Thread nD τ).loc main_v1) ↦{fullShare} W (Proc.devRef .tc main_v1))
          ∗ (((c : Thread nD τ).loc main_cst_0) ↦{fullShare} W (Proc.devRef .tc main_cst_0))
          ∗ (((c : Thread nD τ).loc main_v2) ↦{fullShare} W (Proc.devRef .tc main_v2))) := by
  unfold StableHlo.held
  rw [bigSep_map]
  exact Idealize.SL.BI.bigSep_eq_bigSepL tailL (by decide) _

theorem hostOps1_tailS : ∀ ops ∈ [(hostOps1 : List (HloOp τ sig (Elt F)))], ∀ op ∈ ops, op.bufs ⊆ tailS := by
  intro ops hops
  rw [List.mem_singleton] at hops; subst hops
  refine List.forall_iff_forall_mem.mp ⟨?_, ?_, ?_, ?_⟩
  · exact Finset.singleton_subset_iff.mpr (mem_tailS (by decide))
  · exact Finset.insert_subset (mem_tailS (by decide)) (Finset.insert_subset (mem_tailS (by decide)) (Finset.singleton_subset_iff.mpr (mem_tailS (by decide))))
  · exact Finset.singleton_subset_iff.mpr (mem_tailS (by decide))
  · exact Finset.insert_subset (mem_tailS (by decide)) (Finset.insert_subset (mem_tailS (by decide)) (Finset.singleton_subset_iff.mpr (mem_tailS (by decide))))

theorem hostOps1_fresh' : ∀ ops ∈ [(hostOps1 : List (HloOp τ sig (Elt F)))], ∀ op ∈ ops, op.fresh = ∅ := by
  intro ops hops
  rw [List.mem_singleton] at hops; subst hops
  exact List.forall_iff_forall_mem.mp hostOps1_fresh

/-- Core `c`'s contents where the host lines begin: the result array at `x`, every other buffer as the region found it. -/
def Wexit (c : Dev nD) (x : Vec F S8x1x1 .f32) : Valuation τ sig (Elt F) :=
  Function.update (V0 m c) (Proc.devRef .tc main_v0) x

theorem Wexit_v0 (c : Dev nD) (x : Vec F S8x1x1 .f32) : Wexit m c x (Proc.devRef .tc main_v0) = x := by
  unfold Wexit; exact Function.update_self _ _ _

theorem Wexit_of_ne (c : Dev nD) (x : Vec F S8x1x1 .f32) {r : Ref sig .tc} (h : r ≠ main_v0) :
    Wexit m c x (Proc.devRef .tc r) = V m c r := by
  unfold Wexit; exact Function.update_of_ne (StableHlo.devRef_ne_of_ne h) _ _

/-- The host lines leave the result array as it was and the quotient at their value of it. -/
theorem after_v0 (c : Dev nD) (x : Vec F S8x1x1 .f32) :
    StableHlo.after (hostOps1 : List (HloOp τ sig (Elt F))) (Wexit m c x) (Proc.devRef .tc main_v0) = x := by
  after_results
  exact Wexit_v0 m c x

theorem after_v2 (c : Dev nD) (x : Vec F S8x1x1 .f32) :
    StableHlo.after (hostOps1 : List (HloOp τ sig (Elt F))) (Wexit m c x) (Proc.devRef .tc main_v2) = tailVal x := by
  after_results
  rw [Wexit_v0]

/-- What the host lines hand back beside the arrays: the quotient's buffer at their value of the result array. -/
abbrev Zt (c : Dev nD) : sProp 𝕄 :=
  iprop(((c : Thread nD τ).loc main_v2) ↦{fullShare} tailVal ((dats m 0 c).arrAt 3 cfg0.N))

set_option backward.isDefEq.respectTransparency.types false in
/-- THE HOST LINES from the region's exit: they read the result array, held whole among the pipeline's arrays, and
    write the four buffers that bypassed the region; the arrays come back as they were, the quotient at `tailVal`. -/
theorem htail (c : Dev nD) (Q' : PUnit → sProp 𝕄) :
    iprop((iprop((dats m 0 c).arrays ((dats m 0 c).arrAt · cfg0.N) ∗ Zt m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [arrays0_eq, unscopedRest0_eq]
  have key := Pipeline.wp_seqs_then (Ix := Unit) (Name := ℕ) (U := UR sig nD τ) (Lvl := ℕ) (fun q => (cfgs q).toPCfg (Val := Elt F)) defs₀ Variants.none c tailS [] (K := Q')
    [(hostOps1 : List (HloOp τ sig (Elt F)))] hostOps1_tailS hostOps1_fresh' (Wexit m c ((dats m 0 c).arrAt 3 cfg0.N))
  rw [held_tailS, held_tailS] at key
  simp only [List.flatten_cons, List.flatten_nil, List.append_nil, List.map_cons, List.map_nil] at key
  rw [after_v0, after_v2, Wexit_v0, Wexit_of_ne m c _ (r := main_cst) (by decide), Wexit_of_ne m c _ (r := main_v1) (by decide),
    Wexit_of_ne m c _ (r := main_cst_0) (by decide), Wexit_of_ne m c _ (r := main_v2) (by decide)] at key
  iintro ⟨Hk, Hb, ⟨H0, H1, H2, H3⟩, Hc, Hv1, Hc0, Hv2⟩
  iapply key $$ [Hb H3 Hc Hv1 Hc0 Hv2]
  · isplitl [Hb]; · iexact Hb
    isplitl [H3]; · iexact H3
    isplitl [Hc]; · iexact Hc
    isplitl [Hv1]; · iexact Hv1
    isplitl [Hc0]; · iexact Hc0
    iexact Hv2
  iintro ⟨-, H3, -, -, -, Hv2⟩
  rw [Pipeline.chain_nil, wp_pure]
  imodintro
  iapply Hk
  isplitl [H0 H1 H2 H3]
  · isplitl [H0]; · iexact H0
    isplitl [H1]; · iexact H1
    isplitl [H2]; · iexact H2
    iexact H3
  · iexact Hv2

/-! ## Reading the final memory -/

/-- The quotient's buffer, held whole, read against the memory. -/
theorem hY (c : Dev nD) (s' : Phys nD τ sig (Elt F)) :
    iprop((BI.emp : sProp 𝕄) ∗ Zt m c ∗ SI s')
      ⊢ |={Set.univ}=> iprop(⌜s'.mem.mem ((c : Thread nD τ).loc main_v2) = tailVal ((dats m 0 c).arrAt 3 cfg0.N)⌝ ∗ SI s') := by
  iintro ⟨-, H, HSI⟩
  icombine HSI H gives %h
  imodintro
  isplitr
  · ipureintro; exact Buf.eq_of_forall_mem_univ h
  · iexact HSI

/-- An input array is never written: after the last point it holds what was launched. -/
theorem arrAtN_0 (c : Dev nD) : (dats m 0 c).arrAt 0 cfg0.N = m ((c : Thread nD τ).loc main_arg0) :=
  ((dats m 0 c).arrAt_in 0 rfl cfg0.N).trans ((A_eq m c 0).trans (V_main_arg0 m c))
theorem arrAtN_1 (c : Dev nD) : (dats m 0 c).arrAt 1 cfg0.N = m ((c : Thread nD τ).loc main_arg1) :=
  ((dats m 0 c).arrAt_in 1 rfl cfg0.N).trans ((A_eq m c 1).trans (V_main_arg1 m c))

/-! ## The run -/

set_option backward.isDefEq.respectTransparency.types false in
/-- THE RUN, given the body obligation. -/
theorem run_main (hbody : ∀ c, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v2) = tailVal ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (hbody c).loose) (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hsplit m) (hpf := fun _ k => k.elim0)
    (X := fun _ => BI.emp) (Y := fun _ => BI.emp)
    (Z := fun c => Pipeline.unscopedRest (Ix := Unit) (Name := ℕ) (U := UR sig nD τ) (Lvl := ℕ) spec0 c (V m c))
    (Z' := Zt m)
    (hX := fun c => by
      rw [Pipeline.unscopedRestP_none]
      iintro H
      isplitr; · iempintro
      iexact H)
    (hin := fun c => (show _ ⊢ (Pipeline.scopedRest (Ix := Unit) (Name := ℕ) (U := UR sig nD τ) (Lvl := ℕ) (Val := Elt F) spec0 c : sProp 𝕄) from by
      iintro ⟨-, -, HR⟩; iexact HR).trans (hin m c))
    (hout := fun c => (hout m c).trans (by
      iintro H
      isplitr; · iempintro
      iexact H))
    (htail := htail m)
    (QY := fun c s => s.mem ((c.tc : Thread nD τ).loc main_v2) = tailVal ((dats m 0 c).arrAt 3 cfg0.N))
    (hY := hY m)
    (hQ := fun s h c => ⟨(h c).2.2, ((h c).1 0).trans (arrAtN_0 m c), ((h c).1 1).trans (arrAtN_1 m c)⟩)

end Cert.KernelIdeal.Smooth

end
-- ==== Proof.Smooth.KI.Pieces.lean ====
/-
  What each case's pieces read back to, in the body's own named values: the accumulator after a reset point is the zero
  plus the tile's partial sum; after any other point what the point before left plus the tile's partial sum; the
  output block, where the accumulator is copied out, is the accumulator's new contents. Hence the accumulator point by
  point as a recurrence over the tiles' partial sums.
-/
import proofs.«143707_j86766929314299_1_alg».proof.Proof.Smooth.KI.Frame
import Idealize.ShloMosaic.Lib.Pipeline.Value

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every store and load of the body is through the whole-shape rectangle: its offsets are all zero. -/
private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The accumulator after a reset point: zero, then the tile's partial sum added. -/
theorem sout0_A_eq (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i) (x0 : Vec F S1x1024x1024 .f32) (x1 : Vec F S1x1024x128 .f32) (x2 : Vec F S1x1024x128 .f32) :
    sout0_A c i arg3 harg3 arg4 harg4 arg5 harg5 arg6 harg6 arg7 harg7 hc0 hc1 x0 x1 x2 = k0_pay1 (k0_pay4 x1 x2 x0) (k0_pay3 (F := F)) := by
  unfold sout0_A
  rw [View.read_writes_eq_canon _ _ _ (scover0_A c i arg3 harg3 arg4 harg4 arg5 harg5 arg6 harg6 arg7 harg7 hc0 hc1 x0 x1 x2)]
  unfold kernelRun0_A
  dsimp only
  sl_unfold_words
  rw [View.canon_cons_unit_zero (S := S1x1) zeros2, View.readCov_unit_zero (S := S1x1) _ zeros2]
  simp only [View.readAt_eq_ld, harg3.read_unread, harg4.read_unread, harg5.read_unread,
    View.ld_unit_zero (S := S1x1024x128) zeros3, View.ld_unit_zero (S := S1x1024x1024) zeros3]

/-- The accumulator after a middle point: what the point before left, the tile's partial sum added. -/
theorem sout0_B_eq (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i) (x0 : Vec F S1x1024x1024 .f32) (x1 : Vec F S1x1024x128 .f32) (x2 : Vec F S1x1024x128 .f32) (xs0 : Vec F S1x1 .f32) :
    sout0_B c i arg3 harg3 arg4 harg4 arg5 harg5 arg6 harg6 arg7 harg7 hc0 hc1 x0 x1 x2 xs0 = k0_pay1 (k0_pay4 x1 x2 x0) xs0 := by
  unfold sout0_B
  rw [View.read_writes_eq_canon _ _ _ (scover0_B c i arg3 harg3 arg4 harg4 arg5 harg5 arg6 harg6 arg7 harg7 hc0 hc1 x0 x1 x2 xs0)]
  unfold kernelRun0_B
  dsimp only
  sl_unfold_words
  rw [View.canon_unit_zero (S := S1x1) zeros2]
  simp only [View.readAt_eq_ld, harg3.read_unread, harg4.read_unread, harg5.read_unread,
    View.ld_unit_zero (S := S1x1024x128) zeros3, View.ld_unit_zero (S := S1x1024x1024) zeros3, harg7.read_unread, View.ld_unit_zero (S := S1x1) zeros2]

/-- The accumulator after a copy-out point: likewise. -/
theorem sout0_C_eq (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) :
    sout0_C c i arg3 harg3 arg4 harg4 arg5 harg5 arg6 harg6 arg7 harg7 hc0 hc1 x0 x1 x2 xs0 = k0_pay1 (k0_pay4 x1 x2 x0) xs0 := by
  unfold sout0_C
  rw [View.read_writes_eq_canon _ _ _ (scover0_C c i arg3 harg3 arg4 harg4 arg5 harg5 arg6 harg6 arg7 harg7 hc0 hc1 x0 x1 x2 xs0)]
  unfold kernelRun0_C
  dsimp only
  sl_unfold_words
  rw [View.canon_unit_zero (S := S1x1) zeros2]
  simp only [View.readAt_eq_ld, harg3.read_unread, harg4.read_unread, harg5.read_unread,
    View.ld_unit_zero (S := S1x1024x128) zeros3, View.ld_unit_zero (S := S1x1024x1024) zeros3, harg7.read_unread, View.ld_unit_zero (S := S1x1) zeros2]

/-- The output block after a copy-out point: the accumulator's new contents, as a [1,1,1] block. -/
theorem out0_C_eq (c : Dev nD) (i : grid0.Coords) (arg3 : Memref sig .tc .vmem S1x1024x1024 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i) (x0 : Vec F S1x1024x1024 .f32) (x1 : Vec F S1x1024x128 .f32) (x2 : Vec F S1x1024x128 .f32) (xs0 : Vec F S1x1 .f32) :
    out0_C c i arg3 harg3 arg4 harg4 arg5 harg5 arg6 harg6 arg7 harg7 hc0 hc1 x0 x1 x2 xs0 = k0_pay2 (k0_pay1 (k0_pay4 x1 x2 x0) xs0) := by
  unfold out0_C
  rw [View.read_writes_eq_canon _ _ _ (cover0_C c i arg3 harg3 arg4 harg4 arg5 harg5 arg6 harg6 arg7 harg7 hc0 hc1 x0 x1 x2 xs0)]
  unfold kernelRun0_C
  dsimp only
  sl_unfold_words
  rw [View.canon_unit_zero (S := S1x1x1) zeros3]
  simp only [View.readAt_eq_ld, harg3.read_unread, harg4.read_unread, harg5.read_unread,
    View.ld_unit_zero (S := S1x1024x128) zeros3, View.ld_unit_zero (S := S1x1024x1024) zeros3, harg7.read_unread, View.ld_unit_zero (S := S1x1) zeros2,
    View.readCov_unit_zero (S := S1x1) _ zeros2]

/-- The tile's partial sum at point `t`, of the three blocks the body finds there. -/
def part (c : Dev nD) (t : Fin cfg0.N) : Vec F S1x1 .f32 := k0_pay4 (iblk m c 1 t) (iblk m c 2 t) (iblk m c 0 t)

/-- At a reset point the accumulator ends at zero plus the tile's partial sum. -/
theorem accAt_reset (c : Dev nD) (t : Fin cfg0.N) (h0 : t.val % 4 = 0) :
    accAt m c t.val t.isLt = k0_pay1 (part m c t) (k0_pay3 (F := F)) := by
  have h1 : ¬t.val % 4 = 3 := by omega
  exact (accAt_A m c t h0 h1).trans
    (sout0_A_eq c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- At any other point it ends at what the point before left plus the tile's partial sum. -/
theorem accAt_step (c : Dev nD) (t : Fin cfg0.N) (h0 : ¬t.val % 4 = 0) :
    accAt m c t.val t.isLt = k0_pay1 (part m c t) (accAt m c (t.val - 1) (Nat.lt_of_le_of_lt (Nat.sub_le _ _) t.isLt)) := by
  by_cases h1 : t.val % 4 = 3
  · exact (accAt_C m c t h0 h1).trans
      (sout0_C_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt)))
  · exact (accAt_B m c t h0 h1).trans
      (sout0_B_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (accAt m c (t.val - 1) (Nat.lt_of_le_of_lt (Nat.sub_le _ _) t.isLt)))

/-- Where the accumulator is copied out, the output block's buffer holds its new contents. -/
theorem outAt_eq (c : Dev nD) (t : Fin cfg0.N) (h1 : t.val % 4 = 3) :
    outAt m c t = k0_pay2 (accAt m c t.val t.isLt) := by
  have h0 : ¬t.val % 4 = 0 := by omega
  exact (outAt_C m c t h0 h1).trans
    ((out0_C_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt))).trans
      (congrArg k0_pay2
        ((accAt_C m c t h0 h1).trans
          (sout0_C_eq c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (accAt m c (t.val - 1) (Nat.lt_of_le_of_lt (Nat.sub_le _ _) t.isLt)))).symm))

end Cert.KernelIdeal.Smooth

end
-- ==== Proof.Smooth.Spec.lean ====
/-
  The mathematical statement both programs are compared with.

  For a batch of 8 graphs with 2048 nodes, an adjacency weight `a b n m` and a 128-dimensional embedding `e b n ·`
  of every node, the smoothness loss is

      ( ∑ b n m,  a b n m · max ( (‖e b n‖² + ‖e b m‖²) − 2 · ⟨e b n, e b m⟩ , 0 ) ) / 16384

  read on the extended reals: `hsq` is a node's squared norm, `gram` the inner product of two nodes of one graph,
  `term` one summand, `total` the triple sum and `G` the quotient by the number of (graph, node) pairs, kept as the
  host's quotient by the same binary literal both programs carry.
-/
import Idealize.ShloMosaic.PureOps.Ideal
import Idealize.ShloMosaic.Lib.ValueIdx

noncomputable section

namespace Cert.Spec

open Idealize.ShloMosaic Idealize.ShloMosaic.ValueIdx

/-- The adjacency array's shape, the embedding array's, and the scalar's. -/
abbrev SA : Shape := ⟨3, ![8, 2048, 2048]⟩
abbrev SE : Shape := ⟨3, ![8, 2048, 128]⟩
abbrev S0 : Shape := ⟨0, ![]⟩

/-- The squared norm of node `n` of graph `b`. -/
def hsq (e : SE.Idx → EReal) (b : Fin 8) (n : Fin 2048) : EReal :=
  ∑ d : Fin 128, e (ix3 b n d) * e (ix3 b n d)

/-- The inner product of nodes `n` and `m` of graph `b`. -/
def gram (e : SE.Idx → EReal) (b : Fin 8) (n m : Fin 2048) : EReal :=
  ∑ d : Fin 128, e (ix3 b n d) * e (ix3 b m d)

/-- The factor 2 of the squared distance, as the binary literal both programs carry. -/
def two : EReal := Ideal.ofBits .f32 0x40000000#32

/-- One summand: the adjacency weight times the squared distance of the two nodes, cut off below at zero. -/
def term (a : SA.Idx → EReal) (e : SE.Idx → EReal) (b : Fin 8) (n m : Fin 2048) : EReal :=
  a (ix3 b n m) * max ((hsq e b n + hsq e b m) - two * gram e b n m) 0

/-- The sum over every graph and every ordered pair of its nodes. -/
def total (a : SA.Idx → EReal) (e : SE.Idx → EReal) : EReal :=
  ∑ b : Fin 8, ∑ n : Fin 2048, ∑ m : Fin 2048, term a e b n m

/-- The loss: the total divided by 8 · 2048, the divisor the literal of both programs. -/
def G (a : SA.Idx → EReal) (e : SE.Idx → EReal) : FVec Ideal S0 .f32 :=
  Host.divf (F := Ideal) (fun _ => total a e) (constant (F := Ideal) S0 .f32 0x46800000#32)

end Cert.Spec

end
-- ==== Proof.Smooth.Tiles.lean ====
/-
  The triple sum of the loss cut into tiles: every node index below 2048 is 1024 · i + n for one tile index i < 2 and
  one offset n < 1024, so the sum over ordered pairs of nodes is the sum over pairs of tiles of each tile's sum.
  Addition on the extended reals is commutative and associative, which is all the regrouping uses.
-/
import proofs.«143707_j86766929314299_1_alg».proof.Proof.Smooth.Spec
import Mathlib.Data.Fintype.BigOperators
import Mathlib.Data.EReal.Basic

noncomputable section

namespace Cert.Spec

open Idealize.ShloMosaic Idealize.ShloMosaic.ValueIdx

/-- The node at offset `n` of tile `i`. -/
def node (i : Fin 2) (n : Fin 1024) : Fin 2048 := ⟨1024 * i.val + n.val, by omega⟩

/-- One tile's sum: rows of tile `i` against columns of tile `j`, in graph `b`. -/
def tileSum (a : SA.Idx → EReal) (e : SE.Idx → EReal) (b : Fin 8) (i j : Fin 2) : EReal :=
  ∑ n : Fin 1024, ∑ m : Fin 1024, term a e b (node i n) (node j m)

/-- Division with remainder by 1024: a pair (tile, offset) is the same thing as a node, the tile being the quotient
    of the node's index by 1024 and the offset its remainder. -/
def nodeEquiv : Fin 2 × Fin 1024 ≃ Fin 2048 where
  toFun p := node p.1 p.2
  invFun x := (⟨x.val / 1024, by omega⟩, ⟨x.val % 1024, by omega⟩)
  left_inv := fun ⟨i, n⟩ =>
    Prod.ext (Fin.ext (show (1024 * i.val + n.val) / 1024 = i.val by omega))
      (Fin.ext (show (1024 * i.val + n.val) % 1024 = n.val by omega))
  right_inv := fun x => Fin.ext (show 1024 * (x.val / 1024) + x.val % 1024 = x.val by omega)

/-- A sum over the 2048 nodes is the sum over the two tiles of the sums over each tile's 1024 offsets. -/
theorem sum_split (f : Fin 2048 → EReal) :
    ∑ n : Fin 2048, f n = ∑ i : Fin 2, ∑ k : Fin 1024, f (node i k) :=
  (Equiv.sum_comp nodeEquiv f).symm.trans (Fintype.sum_prod_type fun p => f (nodeEquiv p))

/-- A sum over ordered pairs of nodes is the sum over ordered pairs of tiles of the sums over pairs of offsets:
    split the row index, split the column index, then exchange the row offset with the column tile. -/
theorem pair_split (g : Fin 2048 → Fin 2048 → EReal) :
    ∑ n : Fin 2048, ∑ m : Fin 2048, g n m
      = ∑ i : Fin 2, ∑ j : Fin 2, ∑ n : Fin 1024, ∑ m : Fin 1024, g (node i n) (node j m) :=
  calc ∑ n : Fin 2048, ∑ m : Fin 2048, g n m
      = ∑ i : Fin 2, ∑ n : Fin 1024, ∑ m : Fin 2048, g (node i n) m :=
        sum_split fun n => ∑ m : Fin 2048, g n m
    _ = ∑ i : Fin 2, ∑ n : Fin 1024, ∑ j : Fin 2, ∑ m : Fin 1024, g (node i n) (node j m) :=
        Finset.sum_congr rfl fun i _ => Finset.sum_congr rfl fun n _ => sum_split fun m => g (node i n) m
    _ = ∑ i : Fin 2, ∑ j : Fin 2, ∑ n : Fin 1024, ∑ m : Fin 1024, g (node i n) (node j m) :=
        Finset.sum_congr rfl fun _ _ => Finset.sum_comm

/-- The total is the sum over graphs and pairs of tiles of the tiles' sums. -/
theorem total_eq_tiles (a : SA.Idx → EReal) (e : SE.Idx → EReal) :
    total a e = ∑ b : Fin 8, ∑ i : Fin 2, ∑ j : Fin 2, tileSum a e b i j := by
  unfold total tileSum
  exact Finset.sum_congr rfl fun b _ => pair_split fun n m => term a e b n m

end Cert.Spec

end
-- ==== Proof.Smooth.KI.Blocks.lean ====
/-
  The three input blocks at a grid point, read at an index: point 4 b + 2 i + j fetches the adjacency's tile (i, j) of
  graph b, the embeddings' rows of tile i (the row window) and of tile j (the column window).
-/
import proofs.«143707_j86766929314299_1_alg».proof.Proof.Smooth.KI.Frame
import proofs.«143707_j86766929314299_1_alg».proof.Proof.Smooth.Tiles
import Idealize.ShloMosaic.Lib.Pipeline.Value
import Idealize.ShloMosaic.Lib.ValueIdx

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The grid point of graph `b`, row tile `i`, column tile `j`. -/
def pt (b : Fin 8) (i j : Fin 2) : Fin cfg0.N := ⟨4 * b.val + 2 * i.val + j.val, by have := N32; omega⟩

theorem pt_val (b : Fin 8) (i j : Fin 2) : (pt b i j).val = 4 * b.val + 2 * i.val + j.val := rfl

/-- Window 0's block indices over the 32 points: the graph t / 4, the row tile t / 2 mod 2, the column tile t mod 2. -/
theorem idx0 : ∀ t : Fin cfg0.N, win0_0.index t (0 : Fin 3) = t.val / 4 ∧ win0_0.index t (1 : Fin 3) = t.val / 2 % 2 ∧ win0_0.index t (2 : Fin 3) = t.val % 2 :=
  (by decide +kernel : ∀ t : Fin grid0.N, win0_0.index t (0 : Fin 3) = t.val / 4 ∧ win0_0.index t (1 : Fin 3) = t.val / 2 % 2 ∧ win0_0.index t (2 : Fin 3) = t.val % 2)

/-- Window 1's block indices: the graph, the row tile, and 0 along the embedding dimension. -/
theorem idx1 : ∀ t : Fin cfg0.N, win0_1.index t (0 : Fin 3) = t.val / 4 ∧ win0_1.index t (1 : Fin 3) = t.val / 2 % 2 ∧ win0_1.index t (2 : Fin 3) = 0 :=
  (by decide +kernel : ∀ t : Fin grid0.N, win0_1.index t (0 : Fin 3) = t.val / 4 ∧ win0_1.index t (1 : Fin 3) = t.val / 2 % 2 ∧ win0_1.index t (2 : Fin 3) = 0)

/-- Window 2's block indices: the graph, the column tile, and 0 along the embedding dimension. -/
theorem idx2 : ∀ t : Fin cfg0.N, win0_2.index t (0 : Fin 3) = t.val / 4 ∧ win0_2.index t (1 : Fin 3) = t.val % 2 ∧ win0_2.index t (2 : Fin 3) = 0 :=
  (by decide +kernel : ∀ t : Fin grid0.N, win0_2.index t (0 : Fin 3) = t.val / 4 ∧ win0_2.index t (1 : Fin 3) = t.val % 2 ∧ win0_2.index t (2 : Fin 3) = 0)

/-- The adjacency block at (b, i, j) is tile (i, j) of graph b: on each axis the block's coordinate is its index times
    its extent plus the coordinate inside, and the indices at point 4 b + 2 i + j are b, i and j. -/
theorem iblk0_apply (c : Dev nD) (b : Fin 8) (i j : Fin 2) (n k : Fin 1024) :
    iblk m c 0 (pt b i j) (ix3 0 n k) = V m c main_arg0 (ix3 b (Cert.Spec.node i n) (Cert.Spec.node j k)) := by
  unfold iblk
  rw [View.read_apply]
  show V m c main_arg0 (((cfg0.win 0).blk (pt b i j)).view.emb (ix3 0 n k)) = V m c main_arg0 (ix3 b (Cert.Spec.node i n) (Cert.Spec.node j k))
  obtain ⟨e0, e1, e2⟩ := idx0 (pt b i j)
  have hv := pt_val b i j
  have hb := b.isLt; have hi := i.isLt; have hj := j.isLt
  congr 1
  funext a; apply Fin.ext
  match a with
  | ⟨0, _⟩ => show win0_0.index (pt b i j) (0 : Fin 3) * 1 + 1 * 0 = b.val; omega
  | ⟨1, _⟩ => show win0_0.index (pt b i j) (1 : Fin 3) * 1024 + 1 * n.val = 1024 * i.val + n.val; omega
  | ⟨2, _⟩ => show win0_0.index (pt b i j) (2 : Fin 3) * 1024 + 1 * k.val = 1024 * j.val + k.val; omega

/-- The row block at (b, i, j) is the embeddings of the nodes of tile i: its indices there are b, i and 0. -/
theorem iblk1_apply (c : Dev nD) (b : Fin 8) (i j : Fin 2) (n : Fin 1024) (d : Fin 128) :
    iblk m c 1 (pt b i j) (ix3 0 n d) = V m c main_arg1 (ix3 b (Cert.Spec.node i n) d) := by
  unfold iblk
  rw [View.read_apply]
  show V m c main_arg1 (((cfg0.win 1).blk (pt b i j)).view.emb (ix3 0 n d)) = V m c main_arg1 (ix3 b (Cert.Spec.node i n) d)
  obtain ⟨e0, e1, e2⟩ := idx1 (pt b i j)
  have hv := pt_val b i j
  have hb := b.isLt; have hi := i.isLt; have hj := j.isLt
  congr 1
  funext a; apply Fin.ext
  match a with
  | ⟨0, _⟩ => show win0_1.index (pt b i j) (0 : Fin 3) * 1 + 1 * 0 = b.val; omega
  | ⟨1, _⟩ => show win0_1.index (pt b i j) (1 : Fin 3) * 1024 + 1 * n.val = 1024 * i.val + n.val; omega
  | ⟨2, _⟩ => show win0_1.index (pt b i j) (2 : Fin 3) * 128 + 1 * d.val = d.val; omega

/-- The column block at (b, i, j) is the embeddings of the nodes of tile j: its indices there are b, j and 0. -/
theorem iblk2_apply (c : Dev nD) (b : Fin 8) (i j : Fin 2) (n : Fin 1024) (d : Fin 128) :
    iblk m c 2 (pt b i j) (ix3 0 n d) = V m c main_arg1 (ix3 b (Cert.Spec.node j n) d) := by
  unfold iblk
  rw [View.read_apply]
  show V m c main_arg1 (((cfg0.win 2).blk (pt b i j)).view.emb (ix3 0 n d)) = V m c main_arg1 (ix3 b (Cert.Spec.node j n) d)
  obtain ⟨e0, e1, e2⟩ := idx2 (pt b i j)
  have hv := pt_val b i j
  have hb := b.isLt; have hi := i.isLt; have hj := j.isLt
  congr 1
  funext a; apply Fin.ext
  match a with
  | ⟨0, _⟩ => show win0_2.index (pt b i j) (0 : Fin 3) * 1 + 1 * 0 = b.val; omega
  | ⟨1, _⟩ => show win0_2.index (pt b i j) (1 : Fin 3) * 1024 + 1 * n.val = 1024 * j.val + n.val; omega
  | ⟨2, _⟩ => show win0_2.index (pt b i j) (2 : Fin 3) * 128 + 1 * d.val = d.val; omega

end Cert.KernelIdeal.Smooth

end
-- ==== Proof.Smooth.KI.OutArray.lean ====
/-
  The result array after the run: the output window's block of graph b is written back once, after the last tile of
  b (point 4 b + 3), so cell b of the array holds what the body left in the output block's buffer there.

  The output window runs over the result f32[8,1,1] in blocks of one cell, the block of point t = 4 b + 2 i + j being
  cell (b, 0, 0). It is written back exactly at the points t ≡ 3 (mod 4), one per graph, and those eight one-cell blocks
  are the eight cells of the array: each write-back writes its block of ONE array (`outArr`), and every cell is in the
  block of a point that writes back, so the array ends holding `outArr`.
-/
import proofs.«143707_j86766929314299_1_alg».proof.Proof.Smooth.KI.Frame
import Idealize.ShloMosaic.Lib.Pipeline.Value
import Idealize.ShloMosaic.Lib.ValueIdx

set_option maxRecDepth 16384

noncomputable section

namespace Cert.KernelIdeal.Smooth

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's block index at point t: the graph coordinate t / 4, then 0, 0. -/
theorem out_index : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-- The whole result array the write-backs compose: cell b is the one cell the last tile of graph b left in the output block. -/
def outArr (c : Dev nD) : S8x1x1.Idx → Elt F .f32 := fun j =>
  outAt m c ⟨4 * (j 0).val + 3, by have := N32; have h : (j 0).val < 8 := (j 0).isLt; omega⟩ (ix3 0 0 0)

/-- Cell j of that array, named by the point that writes it. -/
theorem outArr_apply (c : Dev nD) (j : S8x1x1.Idx) (t : Fin cfg0.N) (h : t.val = 4 * (j 0).val + 3) :
    outArr m c j = outAt m c t (ix3 0 0 0) := by
  obtain ⟨n, hn⟩ := t
  dsimp only at h
  subst h
  rfl

/-- What a flushing point writes back is its block of that array: the block of point t is the one cell t / 4. -/
theorem flushed_eq (c : Dev nD) (t : Fin cfg0.N) (hf : (cfg0.win 3).flush t = true) :
    (dats m 0 c).flushed 3 t = ((cfg0.win 3).blk t).view.read (Elt F) (outArr m c) := by
  have h3 : t.val % 4 = 3 := (flush0_3 t).mp hf
  show (cfg0.win 3).cut (grid0.coords t) ((dats m 0 c).after 3 t) = _
  rw [after0_3]
  obtain ⟨e0, e1, e2⟩ := out_index t
  funext y
  rw [View.read_apply]
  have hy0 : (y 0).val = 0 := by have : (y 0).val < 1 := (y 0).isLt; omega
  have hy1 : (y 1).val = 0 := by have : (y 1).val < 1 := (y 1).isLt; omega
  have hy2 : (y 2).val = 0 := by have : (y 2).val < 1 := (y 2).isLt; omega
  have hL : (win0_3.xinj (grid0.coords t) y : S1x1x1.Idx) = ix3 0 0 0 := by
    funext a; apply Fin.ext
    match a with
    | ⟨0, _⟩ => exact hy0
    | ⟨1, _⟩ => exact hy1
    | ⟨2, _⟩ => exact hy2
  show outAt m c t (win0_3.xinj (grid0.coords t) y) = outArr m c (((cfg0.win 3).blk t).view.emb y)
  rw [hL]
  refine (outArr_apply m c _ t ?_).symm
  show t.val = 4 * (win0_3.index t (0 : Fin 3) * 1 + 1 * (y 0).val) + 3
  rw [e0, hy0]; omega

/-- Cell i of the array lies in the block of the point 4 (i 0) + 3, the last tile of graph i 0. -/
theorem mem_out_blk (t : Fin cfg0.N) (i : S8x1x1.Idx) (h : t.val = 4 * (i 0).val + 3) :
    i ∈ ((cfg0.win 3).blk t).view.set := by
  have h1 : (i 1).val < 1 := (i 1).isLt
  have h2 : (i 2).val < 1 := (i 2).isLt
  obtain ⟨e0, e1, e2⟩ := out_index t
  show i ∈ ((View.whole main_v0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 1 ≤ (i 2).val ∧ (i 2).val < win0_3.index t (2 : Fin 3) * 1 + 1
    rw [e2]; omega

/-- Every cell of the array is in the block of a point that writes back. -/
theorem out_cover (i : S8x1x1.Idx) :
    ∃ t : Fin cfg0.N, (cfg0.win 3).flush t = true ∧ i ∈ ((cfg0.win 3).blk t).view.set := by
  have hN := N32
  have h0 : (i 0).val < 8 := (i 0).isLt
  exact ⟨⟨4 * (i 0).val + 3, by omega⟩, (flush0_3 _).mpr (by dsimp only; omega), mem_out_blk _ i rfl⟩

/-- The result array after the run is that array. -/
theorem final_out (c : Dev nD) : (dats m 0 c).arrAt 3 cfg0.N = outArr m c :=
  (dats m 0 c).arrAt_eq_of_cover 3 (outArr m c) (flushed_eq m c) out_cover

/-- Cell `b` of the result array after the run is the one cell of the output block as the last tile of graph `b` left it. -/
theorem final_out_apply (c : Dev nD) (b : Fin 8) :
    (dats m 0 c).arrAt 3 cfg0.N (ix3 b 0 0) = outAt m c ⟨4 * b.val + 3, by have := N32; omega⟩ (ix3 0 0 0) := by
  rw [final_out]
  exact outArr_apply m c (ix3 b 0 0) _ rfl

end Cert.KernelIdeal.Smooth

end
-- ==== Proof.Smooth.KI.Pay4.lean ====
/-
  The tile's partial sum, read on the extended reals: for a block `xa` of the adjacency (1024 × 1024), a block `xr` of
  row embeddings and a block `xc` of column embeddings (1024 × 128 each), the body's value is, in its one cell,

      ∑ n, ∑ m,  xa n m · max ( (∑ d, xr n d · xr n d) + (∑ d, xc m d · xc m d) − 2 · ∑ d, xr n d · xc m d , 0 )

  — the change of float format before the matrix product is the identity, the product into a zero accumulator the
  plain sum over the contracted axis, each lane reduction the sum over its axis from the zero literal.
-/
import proofs.«143707_j86766929314299_1_alg».proof.Proof.Gen.KernelIdeal.Skeleton
import proofs.«143707_j86766929314299_1_alg».proof.Proof.Smooth.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Smooth

open Cert.KernelIdeal Cert.KernelIdeal.Gen
open Idealize.ShloMosaic Idealize.ShloMosaic.ValueIdx

/-- One summand of a tile, from the three blocks. -/
def blockTerm (xa : Vec Ideal S1x1024x1024 .f32) (xr xc : Vec Ideal S1x1024x128 .f32) (n m : Fin 1024) : EReal :=
  xa (ix3 0 n m) * max (((∑ d : Fin 128, xr (ix3 0 n d) * xr (ix3 0 n d)) + (∑ d : Fin 128, xc (ix3 0 m d) * xc (ix3 0 m d)))
      - Cert.Spec.two * (∑ d : Fin 128, xr (ix3 0 n d) * xc (ix3 0 m d))) 0

/-! ## The layout operations of the body, read at coordinates -/

section Layout
variable {α : Type}

/-- A block with a leading unit axis, viewed without it, reads `(0, n, d)` at `(n, d)`. -/
theorem emb_apply (x : S1x1024x128.Idx → α) (h : S1x1024x128.ShapeCasts S1024x128) (n : Fin 1024) (d : Fin 128) :
    shapeCast S1024x128 x h (ix2 n d) = x (ix3 (0 : Fin 1) n d) :=
  shapeCast_1ab_ab_apply x h n d

/-- The adjacency block likewise. -/
theorem adj_apply (x : S1x1024x1024.Idx → α) (h : S1x1024x1024.ShapeCasts S1024x1024) (n m : Fin 1024) :
    shapeCast S1024x1024 x h (ix2 n m) = x (ix3 (0 : Fin 1) n m) :=
  shapeCast_1ab_ab_apply x h n m

/-- A vector viewed as a column reads, at `(n, u)`, the vector at `n`. -/
theorem col_apply (v : S1024.Idx → α) (h : S1024.ShapeCasts S1024x1) (n : Fin 1024) (u : Fin 1) :
    shapeCast S1024x1 v h (ix2 n u) = v (ix1 n) :=
  shapeCast_apply v h _ _ (by
    have hu : u.val = 0 := by omega
    rw [Shape.rowMajor_val_one, Shape.rowMajor_val_two]
    show n.val = n.val * 1 + u.val
    rw [hu, Nat.mul_one, Nat.add_zero])

/-- A column transposed to a row reads, at `(u, m)`, the column at `(m, u)`. -/
theorem row_apply (v : S1024x1.Idx → α) (h : S1024x1.Transposes [1, 0] S1x1024) (u : Fin 1) (m : Fin 1024) :
    transpose S1x1024 [1, 0] v h (ix2 u m) = v (ix2 m u) :=
  transpose_ix2_apply v h u m

/-- A column broadcast along the rows reads, at `(n, m)`, the column at `n`. -/
theorem bcol_apply (v : S1024x1.Idx → α) (h : S1024x1.Broadcasts S1024x1024) (n m : Fin 1024) :
    broadcastTo S1024x1024 v h (ix2 n m) = v (ix2 n (0 : Fin 1)) := by
  refine broadcastTo_apply v h (ix2 n m) (ix2 n (0 : Fin 1)) fun ax => ?_
  match ax with
  | ⟨0, _⟩ =>
    show n.val = if (1024 : Nat) = 1 then 0 else n.val
    rw [if_neg (by decide)]
  | ⟨1, _⟩ =>
    show 0 = if (1 : Nat) = 1 then 0 else m.val
    rw [if_pos rfl]

/-- A row broadcast down the columns reads, at `(n, m)`, the row at `m`. -/
theorem brow_apply (v : S1x1024.Idx → α) (h : S1x1024.Broadcasts S1024x1024) (n m : Fin 1024) :
    broadcastTo S1024x1024 v h (ix2 n m) = v (ix2 (0 : Fin 1) m) :=
  broadcastTo_1b_ab_apply v h n m

/-- The one-entry vector viewed as the one-cell matrix. -/
theorem cell_apply (v : S1.Idx → α) (h : S1.ShapeCasts S1x1) (u w : Fin 1) :
    shapeCast S1x1 v h (ix2 u w) = v (ix1 w) :=
  shapeCast_a_1a_apply v h u w

end Layout

/-! ## The lane sums of the body, read at coordinates -/

/-- The sum along the lanes of a 1024 × 128 array, at row `n`. -/
theorem laneSum_apply (v : FVec Ideal S1024x128 .f32) (h : S1024x128.Reduces [1] S1024) (hφ : FKind.Formats .f32)
    (hacc : (0x00000000#32 : BitVec 32) = FKind.add.neutral .f32 hφ) (n : Fin 1024) :
    multiReduction (F := Ideal) .add [1] S1024 v 0x00000000#32 h hφ hacc (ix1 n) = ∑ d : Fin 128, v (ix2 n d) := by
  refine (Ideal.multiReduction_add_single v 0x00000000#32 h hφ hacc (ix1 n)).trans ?_
  refine Finset.sum_congr rfl fun d _ => congrArg v (funext fun a => Fin.ext ?_)
  match a with
  | ⟨0, _⟩ => rfl
  | ⟨1, _⟩ => rfl

/-- The sum along the columns of a 1024 × 1024 array, at row `n`. -/
theorem rowSum_apply (v : FVec Ideal S1024x1024 .f32) (h : S1024x1024.Reduces [1] S1024) (hφ : FKind.Formats .f32)
    (hacc : (0x00000000#32 : BitVec 32) = FKind.add.neutral .f32 hφ) (n : Fin 1024) :
    multiReduction (F := Ideal) .add [1] S1024 v 0x00000000#32 h hφ hacc (ix1 n) = ∑ m : Fin 1024, v (ix2 n m) := by
  refine (Ideal.multiReduction_add_single v 0x00000000#32 h hφ hacc (ix1 n)).trans ?_
  refine Finset.sum_congr rfl fun m _ => congrArg v (funext fun a => Fin.ext ?_)
  match a with
  | ⟨0, _⟩ => rfl
  | ⟨1, _⟩ => rfl

/-- The sum down a column of 1024 entries, in its one cell. -/
theorem colSum_apply (v : FVec Ideal S1024x1 .f32) (h : S1024x1.Reduces [0] S1) (hφ : FKind.Formats .f32)
    (hacc : (0x00000000#32 : BitVec 32) = FKind.add.neutral .f32 hφ) (u : Fin 1) :
    multiReduction (F := Ideal) .add [0] S1 v 0x00000000#32 h hφ hacc (ix1 u) = ∑ n : Fin 1024, v (ix2 n u) := by
  refine (Ideal.multiReduction_add_single v 0x00000000#32 h hφ hacc (ix1 u)).trans ?_
  refine Finset.sum_congr rfl fun n _ => congrArg v (funext fun a => Fin.ext ?_)
  match a with
  | ⟨0, _⟩ => rfl
  | ⟨1, _⟩ => rfl

/-! ## The matrix product of the body, read at coordinates -/

theorem lhs_gram_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_gram_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_gram_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_gram_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product of a 1024 × 128 array with the transpose of another, into the zero array: at `(n, m)` the inner
    product of row `n` of the first with row `m` of the second. -/
theorem gram_apply (a b : FVec Ideal S1024x128 .bf16) (n m : Fin 1024) :
    matmul dot_S1024x128_S1024x128_S1024x1024_1_1_0_0_n_n none a b (constant (F := Ideal) S1024x1024 .f32 0x00000000#32) (ix2 n m)
      = ∑ d : Fin 128, a (ix2 n d) * b (ix2 m d) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 n m) ((ValueIdx.contrEquiv1 dot_S1024x128_S1024x128_S1024x1024_1_1_0_0_n_n 128 rfl rfl).symm k) = ix2 n k := funext fun a => Fin.ext (by
    match a with
    | ⟨0, _⟩ => exact lhs_gram_0 _ _
    | ⟨1, _⟩ => exact (lhs_gram_1 _ _).trans hk)
  have er : dot_S1024x128_S1024x128_S1024x1024_1_1_0_0_n_n.rhsIdx (ix2 n m) ((ValueIdx.contrEquiv1 dot_S1024x128_S1024x128_S1024x1024_1_1_0_0_n_n 128 rfl rfl).symm k) = ix2 m k := funext fun a => Fin.ext (by
    match a with
    | ⟨0, _⟩ => exact rhs_gram_0 _ _
    | ⟨1, _⟩ => exact (rhs_gram_1 _ _).trans hk)
  rw [el, er]

/-! ## The body's value -/

/-- A summand's shape: equal factors give equal summands. -/
theorem summand_congr {A A' B B' C C' T T' D D' Z : EReal} (hA : A = A') (hB : B = B') (hC : C = C') (hT : T = T')
    (hD : D = D') (hZ : Z = 0) : A * max ((B + C) - T * D) Z = A' * max ((B' + C') - T' * D') 0 := by
  rw [hA, hB, hC, hT, hD, hZ]

/-- A squared entry of an embedding block viewed without its unit axis. -/
theorem sq_apply (x : FVec Ideal S1x1024x128 .f32) (h : S1x1024x128.ShapeCasts S1024x128) (n : Fin 1024) (d : Fin 128) :
    mulf (F := Ideal) (φ := .f32) (shapeCast S1024x128 x h) (shapeCast S1024x128 x h) (ix2 n d)
      = x (ix3 (0 : Fin 1) n d) * x (ix3 (0 : Fin 1) n d) := by
  rw [mulf_apply, emb_apply]

/-- The body's partial sum of a tile is the double sum of the tile's summands, in its one cell. -/
theorem pay4_ideal (xr xc : Vec Ideal S1x1024x128 .f32) (xa : Vec Ideal S1x1024x1024 .f32) (y : S1x1.Idx) :
    k0_pay4 (F := Ideal) xr xc xa y = ∑ n : Fin 1024, ∑ m : Fin 1024, blockTerm xa xr xc n m := by
  obtain ⟨u, w, rfl⟩ : ∃ (u w : Fin 1), y = ix2 u w := ⟨y 0, y 1, eq_ix2 y⟩
  unfold k0_pay4
  -- the one cell is the sum down the column of the row sums
  refine (cell_apply _ _ u w).trans ?_
  refine (colSum_apply _ _ _ _ w).trans ?_
  refine Finset.sum_congr rfl fun n _ => ?_
  refine (col_apply _ _ n w).trans ?_
  refine (rowSum_apply _ _ _ _ n).trans ?_
  refine Finset.sum_congr rfl fun m _ => ?_
  -- the summand at (n, m), factor by factor
  unfold blockTerm
  simp only [mulf_apply, addf_apply, subf_apply, maximumf_apply, broadcast_apply]
  refine summand_congr ?_ ?_ ?_ ?_ ?_ ?_
  · exact adj_apply _ _ n m
  · -- the squared norm of row n, broadcast along the row
    refine (bcol_apply _ _ n m).trans ?_
    refine (col_apply _ _ n 0).trans ?_
    refine (laneSum_apply _ _ _ _ n).trans ?_
    exact Finset.sum_congr rfl fun d _ => sq_apply _ _ n d
  · -- the squared norm of row m of the column block, transposed and broadcast down the column
    refine (brow_apply _ _ n m).trans ?_
    refine (row_apply _ _ 0 m).trans ?_
    refine (col_apply _ _ m 0).trans ?_
    refine (laneSum_apply _ _ _ _ m).trans ?_
    exact Finset.sum_congr rfl fun d _ => sq_apply _ _ m d
  · -- the literal 2
    unfold Cert.Spec.two
    rfl
  · -- the inner product of row n with row m
    refine (gram_apply _ _ n m).trans ?_
    refine Finset.sum_congr rfl fun d _ => ?_
    rw [truncf_apply, truncf_apply, emb_apply, emb_apply]
  · -- the zero literal
    exact Ideal.ofBits_zero_f32

end Cert.KernelIdeal.Smooth

end
-- ==== Proof.Smooth.KI.Value.lean ====
/-
  The kernel's result, at the ideal reading, is the specification's loss of the two argument arrays.

  At point 4 b + 2 i + j the tile's partial sum is the specification's tile sum of graph b, tiles (i, j): the three
  blocks the body finds are the adjacency's tile and the embeddings of the tiles' nodes. The accumulator starts each
  graph at zero and adds the four tiles' sums in turn, so after the graph's last point it holds their sum; that is cell
  b of the result array. The host lines add the eight cells from zero and divide by 16384: the specification's total,
  cut into tiles, over the same literal.
-/
import proofs.«143707_j86766929314299_1_alg».proof.Proof.Smooth.KI.Pieces
import proofs.«143707_j86766929314299_1_alg».proof.Proof.Smooth.KI.Blocks
import proofs.«143707_j86766929314299_1_alg».proof.Proof.Smooth.KI.OutArray
import proofs.«143707_j86766929314299_1_alg».proof.Proof.Smooth.KI.Pay4
import Idealize.ShloMosaic.PureOps.Ideal.Laws
import Idealize.ShloMosaic.Lib.ValueLayout
import Idealize.ShloMosaic.Lib.Pipeline.Value

set_option maxRecDepth 16384

noncomputable section

namespace Cert.KernelIdeal.Smooth

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The adjacency and the embeddings as launched, on core `c`. -/
abbrev adj (c : Dev nD) : Vec Ideal S8x2048x2048 .f32 := m ((c : Thread nD τ).loc main_arg0)
abbrev emb (c : Dev nD) : Vec Ideal S8x2048x128 .f32 := m ((c : Thread nD τ).loc main_arg1)

/-! ## The body's small values on the extended reals -/

/-- The update: the accumulator's old contents plus the tile's partial sum. -/
theorem pay1_ideal (x y : Vec Ideal S1x1 .f32) (z : S1x1.Idx) : k0_pay1 (F := Ideal) x y z = y z + x z := by
  unfold k0_pay1
  rw [shapeCast_self]
  rfl

/-- The reset value is zero. -/
theorem pay3_ideal (z : S1x1.Idx) : k0_pay3 (F := Ideal) z = 0 := by
  unfold k0_pay3
  rw [shapeCast_self]
  exact Ideal.ofBits_zero_f32

/-- The copy-out: the one cell of the block is the one cell of the accumulator. -/
theorem pay2_ideal (x : Vec Ideal S1x1 .f32) (z : S1x1x1.Idx) (z' : S1x1.Idx) : k0_pay2 (F := Ideal) x z = x z' := by
  unfold k0_pay2
  refine shapeCast_apply x _ z z' ?_
  have h1 : (S1x1.rowMajor z').val < 1 := (S1x1.rowMajor z').isLt
  have h2 : (S1x1x1.rowMajor z).val < 1 := (S1x1x1.rowMajor z).isLt
  omega

/-! ## The tile's partial sum is the specification's tile sum -/

theorem part_ideal (c : Dev nD) (b : Fin 8) (i j : Fin 2) (z : S1x1.Idx) :
    part m c (pt b i j) z = Cert.Spec.tileSum (adj m c) (emb m c) b i j := by
  unfold part
  rw [pay4_ideal]
  unfold Cert.Spec.tileSum
  refine Finset.sum_congr rfl fun n _ => Finset.sum_congr rfl fun k _ => ?_
  unfold blockTerm Cert.Spec.term Cert.Spec.hsq Cert.Spec.gram
  simp only [iblk0_apply, iblk1_apply, iblk2_apply]
  rfl

/-! ## The accumulator after a graph's last tile -/

/-- The accumulator at a position does not depend on how the position is written. -/
theorem accAt_congr (c : Dev nD) {n n' : ℕ} (h : n = n') (hn : n < cfg0.N) (hn' : n' < cfg0.N) :
    accAt m c n hn = accAt m c n' hn' := by
  subst h; rfl

theorem acc_closed (c : Dev nD) (b : Fin 8) (z : S1x1.Idx) :
    accAt m c (4 * b.val + 3) (by have := N32; omega) z
      = ∑ i : Fin 2, ∑ j : Fin 2, Cert.Spec.tileSum (adj m c) (emb m c) b i j := by
  have hb := b.isLt
  have e00 := accAt_reset m c (pt b 0 0) (by rw [pt_val]; simp only [Fin.val_zero]; omega)
  have e01 := accAt_step m c (pt b 0 1) (by rw [pt_val]; simp only [Fin.val_zero, Fin.val_one]; omega)
  have e10 := accAt_step m c (pt b 1 0) (by rw [pt_val]; simp only [Fin.val_zero, Fin.val_one]; omega)
  have e11 := accAt_step m c (pt b 1 1) (by rw [pt_val]; simp only [Fin.val_one]; omega)
  rw [accAt_congr m c (show (pt b 0 1).val - 1 = (pt b 0 0).val by simp only [pt_val, Fin.val_zero, Fin.val_one]; omega) _ (pt b 0 0).isLt, e00] at e01
  rw [accAt_congr m c (show (pt b 1 0).val - 1 = (pt b 0 1).val by simp only [pt_val, Fin.val_zero, Fin.val_one]; omega) _ (pt b 0 1).isLt, e01] at e10
  rw [accAt_congr m c (show (pt b 1 1).val - 1 = (pt b 1 0).val by simp only [pt_val, Fin.val_zero, Fin.val_one]; omega) _ (pt b 1 0).isLt, e10] at e11
  rw [accAt_congr m c (show 4 * b.val + 3 = (pt b 1 1).val by simp only [pt_val, Fin.val_one]) _ (pt b 1 1).isLt, e11]
  simp only [pay1_ideal, pay3_ideal, part_ideal, zero_add, Fin.sum_univ_two]
  simp only [add_assoc]

/-! ## The result array and the host lines -/

/-- Cell `b` of the result array is the sum of graph `b`'s four tiles. -/
theorem res_cell (c : Dev nD) (b : Fin 8) :
    (dats m 0 c).arrAt 3 cfg0.N (ix3 b 0 0) = ∑ i : Fin 2, ∑ j : Fin 2, Cert.Spec.tileSum (adj m c) (emb m c) b i j := by
  rw [final_out_apply, outAt_eq m c _ (by show (4 * b.val + 3) % 4 = 3; omega), pay2_ideal _ _ (ix2 0 0)]
  exact acc_closed m c b _

/-- An index of the result array is its graph coordinate. -/
def resEquiv : S8x1x1.Idx ≃ Fin 8 where
  toFun i := i 0
  invFun b := ix3 b 0 0
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- THE KERNEL'S VALUE: the host lines' quotient of the result array's sum is the specification's loss. -/
theorem kernel_eq (c : Dev nD) :
    Host.divf (F := Ideal) (Host.reduceAdd (F := Ideal) ((dats m 0 c).arrAt 3 cfg0.N : Vec Ideal S8x1x1 .f32) (constant (F := Ideal) S_ .f32 0x00000000#32) reducesTo_S8x1x1_S_d0_1_2 h_S_) (constant (F := Ideal) S_ .f32 0x46800000#32)
      = Cert.Spec.G (adj m c) (emb m c) := by
  unfold Cert.Spec.G
  refine congrArg (fun x => Host.divf (F := Ideal) x (constant (F := Ideal) S_ .f32 0x46800000#32)) ?_
  funext z
  simp only [Host.reduceAdd, Ideal.hostReduceAdd_def]
  rw [Ideal.hostReduceAdd_total reducesTo_S8x1x1_S_d0_1_2 (fun b => b.elim0) _ _ z]
  rw [Cert.Spec.total_eq_tiles, ← Equiv.sum_comp resEquiv.symm]
  simp only [constant, Ideal.ofBits_def, Ideal.ofBits_zero_f32, zero_add]
  exact Finset.sum_congr rfl fun b _ => res_cell m c b

end Cert.KernelIdeal.Smooth

end
-- ==== Proof.Smooth.RefValue.lean ====
/-
  The reference program's result, at the ideal reading, is the specification's loss `Cert.Spec.G` of the two
  argument arrays.

  The program computes every node's squared norm as a row sum of the embedding squared, spreads it along the second and
  along the third axis of an 8 × 2048 × 2048 array, adds the two, subtracts twice the batched product of the embedding
  with itself, cuts the difference off below at zero, multiplies by the adjacency weight, sums over the whole array and
  divides by 16384. Read at one index (b, n, m) each stage is the corresponding piece of the specification at (b, n, m);
  the sum over the array's index set is the triple sum over its coordinates.
-/
import proofs.«143707_j86766929314299_1_alg».proof.Proof.Gen.ReferenceIdeal.Run
import proofs.«143707_j86766929314299_1_alg».proof.Proof.Gen.ReferenceIdeal.Read
import proofs.«143707_j86766929314299_1_alg».proof.Proof.Smooth.Spec
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Read

/-! ## The index set of the 8 × 2048 × 2048 array is the product of its coordinate ranges -/

/-- An index of the array is the triple of its coordinates … -/
def idxEquiv3 : S8x2048x2048.Idx ≃ Fin 8 × Fin 2048 × Fin 2048 where
  toFun i := (i 0, i 1, i 2)
  invFun p := ix3 p.1 p.2.1 p.2.2
  left_inv i := (eq_ix3 i).symm
  right_inv _ := rfl

/-- … so a sum over the index set is the triple sum over the coordinates. -/
theorem sum_idx3 (f : S8x2048x2048.Idx → EReal) :
    ∑ i, f i = ∑ b : Fin 8, ∑ n : Fin 2048, ∑ m : Fin 2048, f (ix3 b n m) := by
  rw [← Equiv.sum_comp idxEquiv3.symm f, Fintype.sum_prod_type]
  refine Finset.sum_congr rfl fun b _ => ?_
  rw [Fintype.sum_prod_type]
  rfl

/-! ## The stages at an index -/

/-- The row sum of the squared embedding at (b, n) is node n's squared norm. -/
theorem v1_eq (x1 : Vec Ideal S8x2048x128 .f32) (j : S8x2048.Idx) :
    val_main_v1 (F := Ideal) x1 j = Cert.Spec.hsq x1 (j 0) (j 1) := by
  have hi : ∀ k : Fin 128, idx_main_v1 j k = ix3 (j 0) (j 1) k := fun k => by
    funext a; match a with | ⟨0, _⟩ => rfl | ⟨1, _⟩ => rfl | ⟨2, _⟩ => rfl
  rw [val_main_v1_apply]
  simp only [val_main_cst_apply, val_main_v0_apply, Ideal.ofBits_def, Ideal.mulf_def, Ideal.ofBits_zero_f32, zero_add, hi]
  rfl

/-- The squared norm spread along the third axis: at (b, n, m) it is node n's. -/
theorem v5_eq (x1 : Vec Ideal S8x2048x128 .f32) (i : S8x2048x2048.Idx) :
    val_main_v5 (F := Ideal) x1 i = Cert.Spec.hsq x1 (i 0) (i 1) := by
  rw [val_main_v5_apply, val_main_v2_apply, v1_eq]
  rfl

/-- The squared norm transposed and spread along the second axis: at (b, n, m) it is node m's. -/
theorem v6_eq (x1 : Vec Ideal S8x2048x128 .f32) (i : S8x2048x2048.Idx) :
    val_main_v6 (F := Ideal) x1 i = Cert.Spec.hsq x1 (i 0) (i 2) := by
  rw [val_main_v6_apply, val_main_v4_apply, val_main_v2_apply, v1_eq]
  rfl

/-- The batched product of the embedding with itself: at (b, n, m) the inner product of nodes n and m. -/
theorem v3_eq (x1 : Vec Ideal S8x2048x128 .f32) (i : S8x2048x2048.Idx) :
    val_main_v3 (F := Ideal) x1 i = Cert.Spec.gram x1 (i 0) (i 1) (i 2) := by
  have hl : ∀ k : Fin 128, lidx_main_v3 i k = ix3 (i 0) (i 1) k := fun k => by
    funext a; match a with | ⟨0, _⟩ => rfl | ⟨1, _⟩ => rfl | ⟨2, _⟩ => rfl
  have hr : ∀ k : Fin 128, ridx_main_v3 i k = ix3 (i 0) (i 2) k := fun k => by
    funext a; match a with | ⟨0, _⟩ => rfl | ⟨1, _⟩ => rfl | ⟨2, _⟩ => rfl
  rw [val_main_v3_apply]
  simp only [hl, hr]
  rfl

/-- The squared distance of nodes n and m, cut off below at zero. -/
theorem v12_eq (x1 : Vec Ideal S8x2048x128 .f32) (i : S8x2048x2048.Idx) :
    val_main_v12 (F := Ideal) x1 i
      = max ((Cert.Spec.hsq x1 (i 0) (i 1) + Cert.Spec.hsq x1 (i 0) (i 2))
          - Cert.Spec.two * Cert.Spec.gram x1 (i 0) (i 1) (i 2)) 0 := by
  rw [val_main_v12_apply, val_main_v10_apply, val_main_v7_apply, val_main_v9_apply, val_main_v8_apply,
    val_main_v11_apply, val_main_cst_0_apply, val_main_cst_1_apply, v5_eq, v6_eq, v3_eq]
  simp only [Ideal.ofBits_def, Ideal.mulf_def, Ideal.addf_def, Ideal.subf_def, Ideal.maximumf_def, Ideal.ofBits_zero_f32]
  rfl

/-- One summand of the loss. -/
theorem v13_eq (x0 : Vec Ideal S8x2048x2048 .f32) (x1 : Vec Ideal S8x2048x128 .f32) (b : Fin 8) (n m : Fin 2048) :
    val_main_v13 (F := Ideal) x0 x1 (ix3 b n m) = Cert.Spec.term x0 x1 b n m := by
  rw [val_main_v13_apply, v12_eq]
  simp only [Ideal.mulf_def]
  rfl

/-- The sum over the whole array is the specification's triple sum. -/
theorem v14_eq (x0 : Vec Ideal S8x2048x2048 .f32) (x1 : Vec Ideal S8x2048x128 .f32) (i : S_.Idx) :
    val_main_v14 (F := Ideal) x0 x1 i = Cert.Spec.total x0 x1 := by
  rw [val_main_v14_apply, val_main_cst_2_apply, sum_idx3]
  simp only [Ideal.ofBits_def, Ideal.ofBits_zero_f32, zero_add, v13_eq]
  rfl

/-- The reference's result is the loss. -/
theorem ref_eq (x0 : Vec Ideal Cert.ReferenceIdeal.S8x2048x2048 .f32) (x1 : Vec Ideal Cert.ReferenceIdeal.S8x2048x128 .f32) :
    Cert.ReferenceIdeal.Read.val_main_v15 (F := Ideal) x0 x1 = Cert.Spec.G x0 x1 := by
  funext i
  rw [val_main_v15_apply, v14_eq]
  rfl

end Cert.ReferenceIdeal.RefValue

end
-- ==== Proof.Smooth.Claims.lean ====
/-
  The five claims. Both frames of the kernel — as printed, at the word level, and idealized — are the launch's run
  with the body obligation supplied and the result dropped; the reference's frame is its run with the result dropped;
  the idealization rewrote nothing; and at the ideal reading both programs end at the specification's loss of the
  argument arrays: the kernel by summing tile by tile and graph by graph, the reference by one sum over the whole
  array, the same terms regrouped.
-/
import proofs.«143707_j86766929314299_1_alg».proof.Defs
import proofs.«143707_j86766929314299_1_alg».proof.Proof.Smooth.K.Body
import proofs.«143707_j86766929314299_1_alg».proof.Proof.Smooth.K.Launch
import proofs.«143707_j86766929314299_1_alg».proof.Proof.Smooth.KI.Body
import proofs.«143707_j86766929314299_1_alg».proof.Proof.Smooth.KI.Launch
import proofs.«143707_j86766929314299_1_alg».proof.Proof.Smooth.KI.Value
import proofs.«143707_j86766929314299_1_alg».proof.Proof.Smooth.RefValue
import proofs.«143707_j86766929314299_1_alg».proof.Proof.Gen.Pre_finite_inputs

noncomputable section

namespace Cert.Proof.Smooth

open Idealize.ShloMosaic Idealize.ShloMosaic.TcCoe Idealize.SL.Sem

theorem frame_k : Cert.frame_Kernel := fun m ρ _ =>
  (θ_run Cert.Kernel.defs _ _).mono (fun _ h c => ⟨(h c).2.1, (h c).2.2⟩)
    (Cert.Kernel.Smooth.run_main (F := Bits) m ρ (Cert.Kernel.Smooth.body_obligation m))

theorem frame_ki : Cert.frame_KernelIdeal := fun m ρ _ =>
  (θ_run Cert.KernelIdeal.defs _ _).mono (fun _ h c => ⟨(h c).2.1, (h c).2.2⟩)
    (Cert.KernelIdeal.Smooth.run_main (F := Ideal) m ρ (Cert.KernelIdeal.Smooth.body_obligation m))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Spec.G (Cert.KernelIdeal.Smooth.adj m c) (Cert.KernelIdeal.Smooth.emb m c), ?_, ?_⟩
  · exact (θ_run Cert.KernelIdeal.defs _ _).mono
      (fun _ h c => ⟨(h c).1.trans (Cert.KernelIdeal.Smooth.kernel_eq m c), (h c).2.1, (h c).2.2⟩)
      (Cert.KernelIdeal.Smooth.run_main (F := Ideal) m ρ (Cert.KernelIdeal.Smooth.body_obligation m))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.ReferenceIdeal.RefValue.ref_eq, (hagree c).1, (hagree c).2]

end Cert.Proof.Smooth

end
-- ==== Proof.lean ====
/-
  The certificate of the smoothness loss: a kernel that streams the adjacency tile by tile, accumulating per graph
  the weighted, clipped squared distances of its nodes' embeddings, against the reference that forms the whole
  distance array and sums it once. The claims are proved in Proof/Smooth/Claims.lean; here they are assembled behind
  the witnesses of the programs' stated side conditions.
-/
import proofs.«143707_j86766929314299_1_alg».proof.Defs
import proofs.«143707_j86766929314299_1_alg».proof.Proof.Gen.Kernel
import proofs.«143707_j86766929314299_1_alg».proof.Proof.Gen.KernelIdeal
import proofs.«143707_j86766929314299_1_alg».proof.Proof.Gen.ReferenceIdeal
import proofs.«143707_j86766929314299_1_alg».proof.Proof.Gen.Pre_finite_inputs
import proofs.«143707_j86766929314299_1_alg».proof.Proof.Smooth.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Smooth.frame_k, Cert.Proof.Smooth.frame_ki, Cert.Proof.Smooth.frame_ri, Cert.Proof.Smooth.preserves, Cert.Proof.Smooth.algebraic⟩

end Cert.Proof

end
